-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S16384 : Shape := ⟨1, ![16384]⟩
abbrev S1000 : Shape := ⟨1, ![1000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S1000 : S_.BroadcastsInDim S1000 (![] : Fin 0 → Fin S1000.rank)
  reducesTo_S1000_S_d0 : S1000.ReducesTo [0] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1000 .f32) (main_arg1 : IVec S16384 32) (main_arg2 : FVec F S1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S1000 .f32 := Host.absf main_arg2
  let main_cst_0 : FVec F S_ .f32 := constant S_ .f32 0x7F800000#32
  let main_v5 : FVec F S1000 .f32 := broadcastInDim S1000 ![] bcast_S_S1000 main_cst_0
  let main_v6 : IVec S1000 1 := cmpf .olt main_v4 main_v5
  let main_c_1 : IVec S_ 1 := constantI S_ 1 1#1
  let main_v7 : IVec S_ 1 := (fun x v => Host.reduce IntOp.andi x v reducesTo_S1000_S_d0 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 1000#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S16384x1000 : Shape := ⟨2, ![16384, 1000]⟩
abbrev S16384 : Shape := ⟨1, ![16384]⟩
abbrev S1000 : Shape := ⟨1, ![1000]⟩
abbrev S_ : Shape := ⟨0, ![]⟩
abbrev S1x1000 : Shape := ⟨2, ![1, 1000]⟩
abbrev S1000x1 : Shape := ⟨2, ![1000, 1]⟩
abbrev S1000x1000 : Shape := ⟨2, ![1000, 1000]⟩
abbrev S16384x1 : Shape := ⟨2, ![16384, 1]⟩
abbrev S16384x128 : Shape := ⟨2, ![16384, 128]⟩
abbrev S512x1000 : Shape := ⟨2, ![512, 1000]⟩
abbrev S512x1 : Shape := ⟨2, ![512, 1]⟩
abbrev S512x128 : Shape := ⟨2, ![512, 128]⟩
abbrev S512 : Shape := ⟨1, ![512]⟩

abbrev nBuf : Space → Nat
  | .hbm => 42
  | .vmem => 7
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000, .f32⟩
  | .hbm, ⟨3, _⟩ => ⟨S_, .f32⟩
  | .hbm, ⟨4, _⟩ => ⟨S1000, .f32⟩
  | .hbm, ⟨5, _⟩ => ⟨S1000, .f32⟩
  | .hbm, ⟨6, _⟩ => ⟨S1x1000, .f32⟩
  | .hbm, ⟨7, _⟩ => ⟨S1000x1, .f32⟩
  | .hbm, ⟨8, _⟩ => ⟨S1000x1000, .f32⟩
  | .hbm, ⟨9, _⟩ => ⟨S1000x1000, .f32⟩
  | .hbm, ⟨10, _⟩ => ⟨S1000x1000, .f32⟩
  | .hbm, ⟨11, _⟩ => ⟨S1x1000, .f32⟩
  | .hbm, ⟨12, _⟩ => ⟨S1000x1, .f32⟩
  | .hbm, ⟨13, _⟩ => ⟨S1000x1000, .f32⟩
  | .hbm, ⟨14, _⟩ => ⟨S1000x1000, .f32⟩
  | .hbm, ⟨15, _⟩ => ⟨S1000x1000, .i1⟩
  | .hbm, ⟨16, _⟩ => ⟨S_, .f32⟩
  | .hbm, ⟨17, _⟩ => ⟨S1000x1000, .f32⟩
  | .hbm, ⟨18, _⟩ => ⟨S1000x1000, .f32⟩
  | .hbm, ⟨19, _⟩ => ⟨S_, .f32⟩
  | .hbm, ⟨20, _⟩ => ⟨S1000x1000, .f32⟩
  | .hbm, ⟨21, _⟩ => ⟨S1000x1000, .f32⟩
  | .hbm, ⟨22, _⟩ => ⟨S_, .f32⟩
  | .hbm, ⟨23, _⟩ => ⟨S_, .f32⟩
  | .hbm, ⟨24, _⟩ => ⟨S1000x1000, .f32⟩
  | .hbm, ⟨25, _⟩ => ⟨S1000x1000, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384x1, .i32⟩
  | .hbm, ⟨35, _⟩ => ⟨S16384x128, .f32⟩
  | .hbm, ⟨36, _⟩ => ⟨S16384x1, .f32⟩
  | .hbm, ⟨37, _⟩ => ⟨S16384, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1, .i32⟩
  | .local _ .vmem, ⟨3, _⟩ => ⟨S512x1, .i32⟩
  | .local _ .vmem, ⟨4, _⟩ => ⟨S1000x1000, .f32⟩
  | .local _ .vmem, ⟨5, _⟩ => ⟨S512x128, .f32⟩
  | .local _ .vmem, ⟨6, _⟩ => ⟨S512x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_c : Ref sig .tc := ⟨.hbm, 26, rfl⟩
abbrev main_c_3 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1000x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1000 : S_.BroadcastsInDim S1000 (![] : Fin 0 → Fin S1000.rank)
  bcast_S1000_S1x1000_1 : S1000.BroadcastsInDim S1x1000 (![1] : Fin 1 → Fin S1x1000.rank)
  bcast_S1000_S1000x1_0 : S1000.BroadcastsInDim S1000x1 (![0] : Fin 1 → Fin S1000x1.rank)
  bcast_S1x1000_S1000x1000_0_1 : S1x1000.BroadcastsInDim S1000x1000 (![0, 1] : Fin 2 → Fin S1000x1000.rank)
  bcast_S1000x1_S1000x1000_0_1 : S1000x1.BroadcastsInDim S1000x1000 (![0, 1] : Fin 2 → Fin S1000x1000.rank)
  bcast_S_S1000x1000 : S_.BroadcastsInDim S1000x1000 (![] : Fin 0 → Fin S1000x1000.rank)
  bcast_S_S16384 : S_.BroadcastsInDim S16384 (![] : Fin 0 → Fin S16384.rank)
  shapeCasts_S16384_S16384x1 : S16384.ShapeCasts S16384x1
  inb_S512x1000_S512x1000_0_0 : ∀ a, (![0, 0] : Fin 2 → Nat) a + S512x1000.size a ≤ S512x1000.size a
  h_S512x1000 : 0 < S512x1000.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  broadcasts_S512x1_S512x1000 : S512x1.Broadcasts S512x1000
  natLt_1_32 : 1 < 32
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  reduces_S512x1000_S512 : S512x1000.Reduces [1] S512
  shapeCasts_S512_S512x1 : S512.ShapeCasts S512x1
  broadcasts_S512x1_S512x128 : S512x1.Broadcasts S512x128
  inb_S512x128_S512x128_0_0 : ∀ a, (![0, 0] : Fin 2 → Nat) a + S512x128.size a ≤ S512x128.size a
  h_S512x128 : 0 < S512x128.numel
  slices_S16384x128_S16384x1_0_0 : S16384x128.Slices ![0, 0] S16384x1
  shapeCasts_S16384x1_S16384 : S16384x1.ShapeCasts S16384
  reducesTo_S16384_S_d0 : S16384.ReducesTo [0] S_
  h_S_ : 0 < S_.numel
  dot_S512x1000_S1000x1000_S512x1000_1_0_0_1_n_n_wf : DotDims.WF S512x1000 S1000x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S16384x1000.size a
  hwx0_0 : ∀ i : grid0.Coords, EltTy.bits .f32 = 32 ∨ (Rect.block (s := S16384x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .i32 = 32 ∨ (Rect.block (s := S16384x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x1000.size a ≤ S1000x1000.size a
  hwx0_2 : ∀ i : grid0.Coords, EltTy.bits .f32 = 32 ∨ (Rect.block (s := S1000x1000) S1000x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S16384x128.size a
  hwx0_3 : ∀ i : grid0.Coords, EltTy.bits .f32 = 32 ∨ (Rect.block (s := S16384x128) S512x128.size (cc0_transform_3 i) (hinb0_3 i)).WholeWords (EltTy.packing .f32)

variable [Facts₀]

def dot_S512x1000_S1000x1000_S512x1000_1_0_0_1_n_n : DotDims S512x1000 S1000x1000 S512x1000 where
  lhsContracting := [1]
  rhsContracting := [0]
  lhsNonContracting := [0]
  rhsNonContracting := [1]
  lhsBatch := []
  rhsBatch := []
  wf := dot_S512x1000_S1000x1000_S512x1000_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1000x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1000 : Shape := ⟨2, ![16384, 1000]⟩
abbrev S16384 : Shape := ⟨1, ![16384]⟩
abbrev S1000 : Shape := ⟨1, ![1000]⟩
abbrev S_ : Shape := ⟨0, ![]⟩
abbrev S16384x1 : Shape := ⟨2, ![16384, 1]⟩
abbrev S1x1000 : Shape := ⟨2, ![1, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 145
  | .vmem => 0
  | .smem => 0
  | _ => 0

abbrev hbmTy0_0 (i : Nat) : BufTy := match i % 128 with
  | 0 => ⟨S16384x1000, .f32⟩
  | 1 => ⟨S16384, .i32⟩
  | 2 => ⟨S1000, .f32⟩
  | 3 => ⟨S_, .i32⟩
  | 4 => ⟨S16384, .i32⟩
  | 5 => ⟨S16384, .i1⟩
  | 6 => ⟨S_, .i32⟩
  | 7 => ⟨S16384, .i32⟩
  | 8 => ⟨S16384, .i32⟩
  | 9 => ⟨S16384, .i32⟩
  | 10 => ⟨S16384x1, .i32⟩
  | 11 => ⟨S16384, .f32⟩
  | 12 => ⟨S_, .f32⟩
  | 13 => ⟨S16384, .f32⟩
  | 14 => ⟨S16384, .f32⟩
  | 15 => ⟨S1x1000, .f32⟩
  | 16 => ⟨S16384x1, .f32⟩
  | 17 => ⟨S16384x1000, .f32⟩
  | 18 => ⟨S16384x1000, .f32⟩
  | 19 => ⟨S16384x1000, .f32⟩
  | 20 => ⟨S1x1000, .f32⟩
  | 21 => ⟨S16384x1, .f32⟩
  | 22 => ⟨S16384x1000, .f32⟩
  | 23 => ⟨S16384x1000, .f32⟩
  | 24 => ⟨S16384x1000, .i1⟩
  | 25 => ⟨S_, .f32⟩
  | 26 => ⟨S16384x1000, .f32⟩
  | 27 => ⟨S16384x1000, .f32⟩
  | 28 => ⟨S_, .f32⟩
  | 29 => ⟨S16384x1000, .f32⟩
  | 30 => ⟨S16384x1000, .f32⟩
  | 31 => ⟨S_, .f32⟩
  | 32 => ⟨S_, .f32⟩
  | 33 => ⟨S16384x1000, .f32⟩
  | 34 => ⟨S16384x1000, .f32⟩
  | 35 => ⟨S_, .f32⟩
  | 36 => ⟨S16384, .f32⟩
  | 37 => ⟨S_, .f32⟩
  | 38 => ⟨S16384, .f32⟩
  | 39 => ⟨S16384, .f32⟩
  | 40 => ⟨S16384x1, .f32⟩
  | 41 => ⟨S16384x1000, .f32⟩
  | 42 => ⟨S16384x1000, .f32⟩
  | 43 => ⟨S16384x1000, .f32⟩
  | 44 => ⟨S_, .f32⟩
  | 45 => ⟨S16384, .f32⟩
  | 46 => ⟨S16384x1, .f32⟩
  | 47 => ⟨S16384x1000, .f32⟩
  | 48 => ⟨S16384x1000, .f32⟩
  | 49 => ⟨S16384x1, .i32⟩
  | 50 => ⟨S_, .i32⟩
  | 51 => ⟨S16384x1, .i32⟩
  | 52 => ⟨S16384x1, .i1⟩
  | 53 => ⟨S_, .i32⟩
  | 54 => ⟨S16384x1, .i32⟩
  | 55 => ⟨S16384x1, .i32⟩
  | 56 => ⟨S16384x1, .i32⟩
  | 57 => ⟨S16384x1x1, .i32⟩
  | 58 => ⟨S1, .i32⟩
  | 59 => ⟨S_, .i32⟩
  | 60 => ⟨S16384x1x1, .i32⟩
  | 61 => ⟨S16384x1x1, .i1⟩
  | 62 => ⟨S1x1x1, .i32⟩
  | 63 => ⟨S16384x1x1, .i32⟩
  | 64 => ⟨S16384x1x1, .i1⟩
  | 65 => ⟨S16384x1x1, .i1⟩
  | 66 => ⟨S_, .i1⟩
  | 67 => ⟨S16384x1, .i1⟩
  | 68 => ⟨S16384x1, .f32⟩
  | 69 => ⟨S_, .f32⟩
  | 70 => ⟨S16384x1, .f32⟩
  | 71 => ⟨S16384x1, .f32⟩
  | 72 => ⟨S16384x1000, .f32⟩
  | 73 => ⟨S16384x1000, .i1⟩
  | 74 => ⟨S_, .f32⟩
  | 75 => ⟨S16384x1, .f32⟩
  | 76 => ⟨S16384x1, .f32⟩
  | 77 => ⟨S16384x1000, .f32⟩
  | 78 => ⟨S16384x1000, .f32⟩
  | 79 => ⟨S_, .f32⟩
  | 80 => ⟨S16384x1000, .f32⟩
  | 81 => ⟨S16384x1000, .f32⟩
  | 82 => ⟨S_, .f32⟩
  | 83 => ⟨S_, .f32⟩
  | 84 => ⟨S16384x1000, .f32⟩
  | 85 => ⟨S16384x1000, .f32⟩
  | 86 => ⟨S16384x1, .i32⟩
  | 87 => ⟨S1x1000, .i32⟩
  | 88 => ⟨S16384x1000, .i32⟩
  | 89 => ⟨S16384x1000, .i32⟩
  | 90 => ⟨S16384x1000, .i1⟩
  | 91 => ⟨S16384x1000, .f32⟩
  | 92 => ⟨S_, .f32⟩
  | 93 => ⟨S_, .f32⟩
  | 94 => ⟨S16384x1000, .f32⟩
  | 95 => ⟨S16384x1000, .f32⟩
  | 96 => ⟨S_, .f32⟩
  | 97 => ⟨S16384x1000, .f32⟩
  | 98 => ⟨S16384x1000, .f32⟩
  | 99 => ⟨S16384x1000, .f32⟩
  | 100 => ⟨S16384x1000, .f32⟩
  | 101 => ⟨S_, .f32⟩
  | 102 => ⟨S16384, .f32⟩
  | 103 => ⟨S_, .f32⟩
  | 104 => ⟨S16384, .f32⟩
  | 105 => ⟨S16384, .f32⟩
  | 106 => ⟨S16384x1, .f32⟩
  | 107 => ⟨S16384x1000, .f32⟩
  | 108 => ⟨S16384x1000, .f32⟩
  | 109 => ⟨S16384x1000, .f32⟩
  | 110 => ⟨S_, .f32⟩
  | 111 => ⟨S16384, .f32⟩
  | 112 => ⟨S16384x1, .f32⟩
  | 113 => ⟨S16384x1, .f32⟩
  | 114 => ⟨S16384x1000, .f32⟩
  | 115 => ⟨S16384x1000, .f32⟩
  | 116 => ⟨S16384x1, .i32⟩
  | 117 => ⟨S_, .i32⟩
  | 118 => ⟨S16384x1, .i32⟩
  | 119 => ⟨S16384x1, .i1⟩
  | 120 => ⟨S_, .i32⟩
  | 121 => ⟨S16384x1, .i32⟩
  | 122 => ⟨S16384x1, .i32⟩
  | 123 => ⟨S16384x1, .i32⟩
  | 124 => ⟨S16384x1x1, .i32⟩
  | 125 => ⟨S1, .i32⟩
  | 126 => ⟨S_, .i32⟩
  | 127 => ⟨S16384x1x1, .i32⟩
  | _ => ⟨S16384x1000, .f32⟩

abbrev hbmTy0_1 (i : Nat) : BufTy := match i % 128 with
  | 0 => ⟨S16384x1x1, .i1⟩
  | 1 => ⟨S1x1x1, .i32⟩
  | 2 => ⟨S16384x1x1, .i32⟩
  | 3 => ⟨S16384x1x1, .i1⟩
  | 4 => ⟨S16384x1x1, .i1⟩
  | 5 => ⟨S_, .i1⟩
  | 6 => ⟨S16384x1, .i1⟩
  | 7 => ⟨S16384x1, .f32⟩
  | 8 => ⟨S_, .f32⟩
  | 9 => ⟨S16384x1, .f32⟩
  | 10 => ⟨S16384x1, .f32⟩
  | 11 => ⟨S16384, .f32⟩
  | 12 => ⟨S16384, .f32⟩
  | 13 => ⟨S_, .f32⟩
  | 14 => ⟨S_, .f32⟩
  | 15 => ⟨S_, .f32⟩
  | 16 => ⟨S_, .f32⟩
  | _ => ⟨S16384x1000, .f32⟩

abbrev hbmTy (i : Nat) : BufTy := match i / 128 with
  | 0 => hbmTy0_0 i
  | 1 => hbmTy0_1 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_cst : Ref sig .tc := ⟨.hbm, 69, rfl⟩
abbrev main_call1_v14 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_7 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_8 : Ref sig .tc := ⟨.hbm, 79, rfl⟩
abbrev main_v43 : Ref sig .tc := ⟨.hbm, 80, rfl⟩
abbrev main_v44 : Ref sig .tc := ⟨.hbm, 81, rfl⟩
abbrev main_cst_9 : Ref sig .tc := ⟨.hbm, 82, rfl⟩
abbrev main_call2_v0 : Ref sig .tc := ⟨.hbm, 83, rfl⟩
abbrev main_call2_v1 : Ref sig .tc := ⟨.hbm, 84, rfl⟩
abbrev main_v45 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_v46 : Ref sig .tc := ⟨.hbm, 90, rfl⟩
abbrev main_v47 : Ref sig .tc := ⟨.hbm, 91, rfl⟩
abbrev main_cst_10 : Ref sig .tc := ⟨.hbm, 92, rfl⟩
abbrev main_call4_v0 : Ref sig .tc := ⟨.hbm, 93, rfl⟩
abbrev main_call4_v1 : Ref sig .tc := ⟨.hbm, 94, rfl⟩
abbrev main_v48 : Ref sig .tc := ⟨.hbm, 95, rfl⟩
abbrev main_cst_11 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_call5_cst : Ref sig .tc := ⟨.hbm, 101, rfl⟩
abbrev main_call5_v0 : Ref sig .tc := ⟨.hbm, 102, rfl⟩
abbrev main_call5_cst_0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_v6 : Ref sig .tc := ⟨.hbm, 109, rfl⟩
abbrev main_call5_cst_1 : Ref sig .tc := ⟨.hbm, 110, rfl⟩
abbrev main_call5_v7 : Ref sig .tc := ⟨.hbm, 111, rfl⟩
abbrev main_call5_v8 : Ref sig .tc := ⟨.hbm, 112, rfl⟩
abbrev main_call5_v9 : Ref sig .tc := ⟨.hbm, 113, rfl⟩
abbrev main_call5_v10 : Ref sig .tc := ⟨.hbm, 114, rfl⟩
abbrev main_v53 : Ref sig .tc := ⟨.hbm, 115, rfl⟩
abbrev main_v54 : Ref sig .tc := ⟨.hbm, 116, rfl⟩
abbrev main_call6_c : Ref sig .tc := ⟨.hbm, 117, rfl⟩
abbrev main_call6_v0 : Ref sig .tc := ⟨.hbm, 118, rfl⟩
abbrev main_call6_v1 : Ref sig .tc := ⟨.hbm, 119, rfl⟩
abbrev main_call6_c_0 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_v5 : Ref sig .tc := ⟨.hbm, 124, rfl⟩
abbrev main_call6_c_1 : Ref sig .tc := ⟨.hbm, 125, rfl⟩
abbrev main_call6_c_2 : Ref sig .tc := ⟨.hbm, 126, rfl⟩
abbrev main_call6_v6 : Ref sig .tc := ⟨.hbm, 127, rfl⟩
abbrev main_call6_v7 : Ref sig .tc := ⟨.hbm, 128, rfl⟩
abbrev main_call6_v8 : Ref sig .tc := ⟨.hbm, 129, rfl⟩
abbrev main_call6_v9 : Ref sig .tc := ⟨.hbm, 130, rfl⟩
abbrev main_call6_v10 : Ref sig .tc := ⟨.hbm, 131, rfl⟩
abbrev main_call6_v11 : Ref sig .tc := ⟨.hbm, 132, rfl⟩
abbrev main_call6_c_3 : Ref sig .tc := ⟨.hbm, 133, rfl⟩
abbrev main_call6_v12 : Ref sig .tc := ⟨.hbm, 134, rfl⟩
abbrev main_call6_v13 : Ref sig .tc := ⟨.hbm, 135, rfl⟩
abbrev main_call6_cst : Ref sig .tc := ⟨.hbm, 136, rfl⟩
abbrev main_call6_v14 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_cst_12 : Ref sig .tc := ⟨.hbm, 141, rfl⟩
abbrev main_v58 : Ref sig .tc := ⟨.hbm, 142, rfl⟩
abbrev main_cst_13 : Ref sig .tc := ⟨.hbm, 143, rfl⟩
abbrev main_v59 : Ref sig .tc := ⟨.hbm, 144, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S1000_S1x1000_1 : S1000.BroadcastsInDim S1x1000 (![1] : Fin 1 → Fin S1x1000.rank)
  bcast_S1x1000_S16384x1000_0_1 : S1x1000.BroadcastsInDim S16384x1000 (![0, 1] : Fin 2 → Fin S16384x1000.rank)
  bcast_S16384x1_S16384x1000_0_1 : S16384x1.BroadcastsInDim S16384x1000 (![0, 1] : Fin 2 → Fin S16384x1000.rank)
  bcast_S_S16384x1000 : S_.BroadcastsInDim S16384x1000 (![] : Fin 0 → Fin S16384x1000.rank)
  reducesTo_S16384x1000_S16384_d1 : S16384x1000.ReducesTo [1] S16384
  h_S_ : 0 < S_.numel
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  reducesTo_S16384_S_d0 : S16384.ReducesTo [0] S_
  gather_S1000_S16384x1_S16384_n_0_n_n_0_1_1_wf : GatherDims.WF S1000 S16384x1 S16384 [] [0] [] [0] [] 1 ![1]
  gather_S16384x1000_S16384x1x1_S16384x1_n_1_0_0_1_2_11_wf : GatherDims.WF S16384x1000 S16384x1x1 S16384x1 [] [1] [0] [1] [0] 2 ![1, 1]

variable [Facts₀]

def gather_S1000_S16384x1_S16384_n_0_n_n_0_1_1 : GatherDims S1000 S16384x1 S16384 where
  offsetDims := []
  collapsedSliceDims := [0]
  operandBatchingDims := []
  startIndicesBatchingDims := []
  startIndexMap := [0]
  indexVectorDim := 1
  sliceSizes := ![1]
  wf := gather_S1000_S16384x1_S16384_n_0_n_n_0_1_1_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf

class Facts : Prop extends Facts₀ where

variable [Facts]
-- ==== Proof.RefRunHand.lean ====
/-
  The reference's run, read stage by stage.

  The reference is a straight line of 142 host operations. Cut where few values are live — after the mitigation
  factors, the softmax, the target's probability, the compensation factors, the reweighted logits, their log-softmax —
  each stretch, run from ANY valuation whose live buffers hold the stages computed so far, leaves its own stage in its
  result buffer and the live buffers as they were. Composed, the run ends with the result buffer at the last stage,
  the mean loss as a function of the three arguments, and the arguments unchanged.
-/
import proofs.«426645_j41120016892076_3_alg».proof.Proof.RefRead
import Idealize.ShloMosaic.Lib.StableHlo.Run

noncomputable section

namespace Cert.Seesaw.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The seven stretches -/

/-- The target's clamped count and the mitigation factors. -/
abbrev opsA : List (HloOp τ sig (Elt F)) :=
  [ nullary main_c (constantI S_ 32 0#32),
    unary main_c main_v0 (broadcastInDim S16384 ![] bcast_S_S16384 : (⟨S_, .i32⟩ : BufTy).Contents (Elt F) → (⟨S16384, .i32⟩ : BufTy).Contents (Elt F)),
    binary main_arg1 main_v0 main_v1 (cmpi .slt : (⟨S16384, .i32⟩ : BufTy).Contents (Elt F) → (⟨S16384, .i32⟩ : BufTy).Contents (Elt F) → (⟨S16384, .i1⟩ : BufTy).Contents (Elt F)),
    nullary main_c_0 (constantI S_ 32 1000#32),
    unary main_c_0 main_v2 (broadcastInDim S16384 ![] bcast_S_S16384 : (⟨S_, .i32⟩ : BufTy).Contents (Elt F) → (⟨S16384, .i32⟩ : BufTy).Contents (Elt F)),
    binary main_arg1 main_v2 main_v3 (addi : (⟨S16384, .i32⟩ : BufTy).Contents (Elt F) → (⟨S16384, .i32⟩ : BufTy).Contents (Elt F) → (⟨S16384, .i32⟩ : BufTy).Contents (Elt F)),
    ternary main_v1 main_v3 main_arg1 main_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v4 main_v5 (broadcastInDim S16384x1 ![0] bcast_S16384_S16384x1_0 : (⟨S16384, .i32⟩ : BufTy).Contents (Elt F) → (⟨S16384x1, .i32⟩ : BufTy).Contents (Elt F)),
    binary main_arg2 main_v5 main_v6 ((fun x i => Host.gather gather_S1000_S16384x1_S16384_n_0_n_n_0_1_1 x i) : (⟨S1000, .f32⟩ : BufTy).Contents (Elt F) → (⟨S16384x1, .i32⟩ : BufTy).Contents (Elt F) → (⟨S16384, .f32⟩ : BufTy).Contents (Elt F)),
    nullary main_cst (constant S_ .f32 0x3F800000#32),
    unary main_cst main_v7 (broadcastInDim S16384 ![] bcast_S_S16384 : (⟨S_, .f32⟩ : BufTy).Contents (Elt F) → (⟨S16384, .f32⟩ : BufTy).Contents (Elt F)),
    binary main_v6 main_v7 main_v8 (maximumf : (⟨S16384, .f32⟩ : BufTy).Contents (Elt F) → (⟨S16384, .f32⟩ : BufTy).Contents (Elt F) → (⟨S16384, .f32⟩ : BufTy).Contents (Elt F)),
    unary main_arg2 main_v9 (broadcastInDim S1x1000 ![1] bcast_S1000_S1x1000_1 : (⟨S1000, .f32⟩ : BufTy).Contents (Elt F) → (⟨S1x1000, .f32⟩ : BufTy).Contents (Elt F)),
    unary main_v8 main_v10 (broadcastInDim S16384x1 ![0] bcast_S16384_S16384x1_0 : (⟨S16384, .f32⟩ : BufTy).Contents (Elt F) → (⟨S16384x1, .f32⟩ : BufTy).Contents (Elt F)),
    unary main_v9 main_v11 (broadcastInDim S16384x1000 ![0, 1] bcast_S1x1000_S16384x1000_0_1 : (⟨S1x1000, .f32⟩ : BufTy).Contents (Elt F) → (⟨S16384x1000, .f32⟩ : BufTy).Contents (Elt F)),
    unary main_v10 main_v12 (broadcastInDim S16384x1000 ![0, 1] bcast_S16384x1_S16384x1000_0_1 : (⟨S16384x1, .f32⟩ : BufTy).Contents (Elt F) → (⟨S16384x1000, .f32⟩ : BufTy).Contents (Elt F)),
    binary main_v11 main_v12 main_v13 (Host.divf : (⟨S16384x1000, .f32⟩ : BufTy).Contents (Elt F) → (⟨S16384x1000, .f32⟩ : BufTy).Contents (Elt F) → (⟨S16384x1000, .f32⟩ : BufTy).Contents (Elt F)),
    unary main_arg2 main_v14 (broadcastInDim S1x1000 ![1] bcast_S1000_S1x1000_1 : (⟨S1000, .f32⟩ : BufTy).Contents (Elt F) → (⟨S1x1000, .f32⟩ : BufTy).Contents (Elt F)),
    unary main_v8 main_v15 (broadcastInDim S16384x1 ![0] bcast_S16384_S16384x1_0 : (⟨S16384, .f32⟩ : BufTy).Contents (Elt F) → (⟨S16384x1, .f32⟩ : BufTy).Contents (Elt F)),
    unary main_v14 main_v16 (broadcastInDim S16384x1000 ![0, 1] bcast_S1x1000_S16384x1000_0_1 : (⟨S1x1000, .f32⟩ : BufTy).Contents (Elt F) → (⟨S16384x1000, .f32⟩ : BufTy).Contents (Elt F)),
    unary main_v15 main_v17 (broadcastInDim S16384x1000 ![0, 1] bcast_S16384x1_S16384x1000_0_1 : (⟨S16384x1, .f32⟩ : BufTy).Contents (Elt F) → (⟨S16384x1000, .f32⟩ : BufTy).Contents (Elt F)),
    binary main_v16 main_v17 main_v18 (cmpf .olt : (⟨S16384x1000, .f32⟩ : BufTy).Contents (Elt F) → (⟨S16384x1000, .f32⟩ : BufTy).Contents (Elt F) → (⟨S16384x1000, .i1⟩ : BufTy).Contents (Elt F)),
    nullary main_cst_1 (constant S_ .f32 0x3C23D70A#32),
    unary main_cst_1 main_v19 (broadcastInDim S16384x1000 ![] bcast_S_S16384x1000 : (⟨S_, .f32⟩ : BufTy).Contents (Elt F) → (⟨S16384x1000, .f32⟩ : BufTy).Contents (Elt F)),
    binary main_v13 main_v19 main_v20 (addf : (⟨S16384x1000, .f32⟩ : BufTy).Contents (Elt F) → (⟨S16384x1000, .f32⟩ : BufTy).Contents (Elt F) → (⟨S16384x1000, .f32⟩ : BufTy).Contents (Elt F)),
    nullary main_cst_2 (constant S_ .f32 0x3F19999A#32),
    unary main_cst_2 main_v21 (broadcastInDim S16384x1000 ![] bcast_S_S16384x1000 : (⟨S_, .f32⟩ : BufTy).Contents (Elt F) → (⟨S16384x1000, .f32⟩ : BufTy).Contents (Elt F)),
    binary main_v20 main_v21 main_v22 (Host.powf : (⟨S16384x1000, .f32⟩ : BufTy).Contents (Elt F) → (⟨S16384x1000, .f32⟩ : BufTy).Contents (Elt F) → (⟨S16384x1000, .f32⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S16384x1000, .f32⟩) main_call0_v1) (broadcastInDim S16384x1000 ![] bcast_S_S16384x1000),
    TRef.ternary (TRef.of (T := ⟨S16384x1000, .i1⟩) main_v18) (TRef.of (T := ⟨S16384x1000, .f32⟩) main_v22) (TRef.of (T := ⟨S16384x1000, .f32⟩) main_call0_v1) (TRef.of (T := ⟨S16384x1000, .f32⟩) main_v23) select ]

/-- The softmax of the logits. -/
abbrev opsB : List (HloOp τ sig (Elt F)) :=
  [ nullary main_cst_4 (constant S_ .f32 0xFF800000#32),
    binary main_arg0 main_cst_4 main_v24 ((fun x v => Host.reduce FloatOps.maximumf x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    nullary main_cst_5 (constant S_ .f32 0xFF800000#32),
    unary main_cst_5 main_v25 (broadcastInDim S16384 ![] bcast_S_S16384 : (⟨S_, .f32⟩ : BufTy).Contents (Elt F) → (⟨S16384, .f32⟩ : BufTy).Contents (Elt F)),
    binary main_v25 main_v24 main_v26 (maximumf : (⟨S16384, .f32⟩ : BufTy).Contents (Elt F) → (⟨S16384, .f32⟩ : BufTy).Contents (Elt F) → (⟨S16384, .f32⟩ : BufTy).Contents (Elt F)),
    unary main_v26 main_v27 (broadcastInDim S16384x1 ![0] bcast_S16384_S16384x1_0 : (⟨S16384, .f32⟩ : BufTy).Contents (Elt F) → (⟨S16384x1, .f32⟩ : BufTy).Contents (Elt F)),
    unary main_v27 main_v28 (broadcastInDim S16384x1000 ![0, 1] bcast_S16384x1_S16384x1000_0_1 : (⟨S16384x1, .f32⟩ : BufTy).Contents (Elt F) → (⟨S16384x1000, .f32⟩ : BufTy).Contents (Elt F)),
    binary main_arg0 main_v28 main_v29 (subf : (⟨S16384x1000, .f32⟩ : BufTy).Contents (Elt F) → (⟨S16384x1000, .f32⟩ : BufTy).Contents (Elt F) → (⟨S16384x1000, .f32⟩ : BufTy).Contents (Elt F)),
    unary main_v29 main_v30 (Host.exp : (⟨S16384x1000, .f32⟩ : BufTy).Contents (Elt F) → (⟨S16384x1000, .f32⟩ : BufTy).Contents (Elt F)),
    nullary main_cst_6 (constant S_ .f32 0x00000000#32),
    binary main_v30 main_cst_6 main_v31 ((fun x v => Host.reduceAdd x v reducesTo_S16384x1000_S16384_d1 h_S_) : (⟨S16384x1000, .f32⟩ : BufTy).Contents (Elt F) → (⟨S_, .f32⟩ : BufTy).Contents (Elt F) → (⟨S16384, .f32⟩ : BufTy).Contents (Elt F)),
    unary main_v31 main_v32 (broadcastInDim S16384x1 ![0] bcast_S16384_S16384x1_0 : (⟨S16384, .f32⟩ : BufTy).Contents (Elt F) → (⟨S16384x1, .f32⟩ : BufTy).Contents (Elt F)),
    unary main_v32 main_v33 (broadcastInDim S16384x1000 ![0, 1] bcast_S16384x1_S16384x1000_0_1 : (⟨S16384x1, .f32⟩ : BufTy).Contents (Elt F) → (⟨S16384x1000, .f32⟩ : BufTy).Contents (Elt F)),
    binary main_v30 main_v33 main_v34 (Host.divf : (⟨S16384x1000, .f32⟩ : BufTy).Contents (Elt F) → (⟨S16384x1000, .f32⟩ : BufTy).Contents (Elt F) → (⟨S16384x1000, .f32⟩ : BufTy).Contents (Elt F)) ]

/-- The target's probability (the row gather of `take_along_axis`, with its bounds check). -/
abbrev opsC : List (HloOp τ sig (Elt F)) :=
  [ unary main_arg1 main_v35 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x1, .i32⟩) main_call1_v0) (broadcastInDim S16384x1 ![] bcast_S_S16384x1),
    TRef.binary (TRef.of (T := ⟨S16384x1, .i32⟩) main_v35) (TRef.of (T := ⟨S16384x1, .i32⟩) main_call1_v0) (TRef.of (T := ⟨S16384x1, .i1⟩) main_call1_v1) (cmpi .slt),
    TRef.nullary (TRef.of (T := ⟨S_, .i32⟩) main_call1_c_0) (constantI S_ 32 1000#32),
    TRef.unary (TRef.of (T := ⟨S_, .i32⟩) main_call1_c_0) (TRef.of (T := ⟨S16384x1, .i32⟩) main_call1_v2) (broadcastInDim S16384x1 ![] bcast_S_S16384x1),
    TRef.binary (TRef.of (T := ⟨S16384x1, .i32⟩) main_v35) (TRef.of (T := ⟨S16384x1, .i32⟩) main_call1_v2) (TRef.of (T := ⟨S16384x1, .i32⟩) main_call1_v3) addi,
    TRef.ternary (TRef.of (T := ⟨S16384x1, .i1⟩) main_call1_v1) (TRef.of (T := ⟨S16384x1, .i32⟩) main_call1_v3) (TRef.of (T := ⟨S16384x1, .i32⟩) main_v35) (TRef.of (T := ⟨S16384x1, .i32⟩) main_call1_v4) select,
    TRef.reshape (TRef.of (T := ⟨S16384x1, .i32⟩) main_call1_v4) (TRef.of (T := ⟨S16384x1x1, .i32⟩) main_call1_v5) rfl shapeCasts_S16384x1_S16384x1x1,
    TRef.nullary (TRef.of (T := ⟨S1, .i32⟩) main_call1_c_1) (constantI S1 32 999#32),
    TRef.nullary (TRef.of (T := ⟨S_, .i32⟩) main_call1_c_2) (constantI S_ 32 0#32),
    TRef.unary (TRef.of (T := ⟨S_, .i32⟩) main_call1_c_2) (TRef.of (T := ⟨S16384x1x1, .i32⟩) main_call1_v6) (broadcastInDim S16384x1x1 ![] bcast_S_S16384x1x1),
    TRef.binary (TRef.of (T := ⟨S16384x1x1, .i32⟩) main_call1_v5) (TRef.of (T := ⟨S16384x1x1, .i32⟩) main_call1_v6) (TRef.of (T := ⟨S16384x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2),
    TRef.binary (TRef.of (T := ⟨S16384x1x1, .i32⟩) main_call1_v5) (TRef.of (T := ⟨S16384x1x1, .i32⟩) main_call1_v9) (TRef.of (T := ⟨S16384x1x1, .i1⟩) main_call1_v10) (cmpi .sle),
    TRef.binary (TRef.of (T := ⟨S16384x1x1, .i1⟩) main_call1_v7) (TRef.of (T := ⟨S16384x1x1, .i1⟩) main_call1_v10) (TRef.of (T := ⟨S16384x1x1, .i1⟩) main_call1_v11) andi,
    TRef.nullary (TRef.of (T := ⟨S_, .i1⟩) main_call1_c_3) (constantI S_ 1 1#1),
    TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_),
    TRef.binary (TRef.of (T := ⟨S16384x1000, .f32⟩) main_v34) (TRef.of (T := ⟨S16384x1x1, .i32⟩) main_call1_v5) (TRef.of (T := ⟨S16384x1, .f32⟩) main_call1_v13) (fun x i => Host.gather gather_S16384x1000_S16384x1x1_S16384x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16384x1, .f32⟩) main_call1_v14) (broadcastInDim S16384x1 ![] bcast_S_S16384x1),
    TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v36) select ]

/-- The compensation factors. -/
abbrev opsD : List (HloOp τ sig (Elt F)) :=
  [ unary main_v36 main_v37 (broadcastInDim S16384x1000 ![0, 1] bcast_S16384x1_S16384x1000_0_1 : (⟨S16384x1, .f32⟩ : BufTy).Contents (Elt F) → (⟨S16384x1000, .f32⟩ : BufTy).Contents (Elt F)),
    binary main_v34 main_v37 main_v38 (cmpf .ogt : (⟨S16384x1000, .f32⟩ : BufTy).Contents (Elt F) → (⟨S16384x1000, .f32⟩ : BufTy).Contents (Elt F) → (⟨S16384x1000, .i1⟩ : BufTy).Contents (Elt F)),
    nullary main_cst_7 (constant S_ .f32 0x3C23D70A#32),
    unary main_cst_7 main_v39 (broadcastInDim S16384x1 ![] bcast_S_S16384x1 : (⟨S_, .f32⟩ : BufTy).Contents (Elt F) → (⟨S16384x1, .f32⟩ : BufTy).Contents (Elt F)),
    binary main_v36 main_v39 main_v40 (addf : (⟨S16384x1, .f32⟩ : BufTy).Contents (Elt F) → (⟨S16384x1, .f32⟩ : BufTy).Contents (Elt F) → (⟨S16384x1, .f32⟩ : BufTy).Contents (Elt F)),
    unary main_v40 main_v41 (broadcastInDim S16384x1000 ![0, 1] bcast_S16384x1_S16384x1000_0_1 : (⟨S16384x1, .f32⟩ : BufTy).Contents (Elt F) → (⟨S16384x1000, .f32⟩ : BufTy).Contents (Elt F)),
    binary main_v34 main_v41 main_v42 (Host.divf : (⟨S16384x1000, .f32⟩ : BufTy).Contents (Elt F) → (⟨S16384x1000, .f32⟩ : BufTy).Contents (Elt F) → (⟨S16384x1000, .f32⟩ : BufTy).Contents (Elt F)),
    nullary main_cst_8 (constant S_ .f32 0x3FC00000#32),
    unary main_cst_8 main_v43 (broadcastInDim S16384x1000 ![] bcast_S_S16384x1000 : (⟨S_, .f32⟩ : BufTy).Contents (Elt F) → (⟨S16384x1000, .f32⟩ : BufTy).Contents (Elt F)),
    binary main_v42 main_v43 main_v44 (Host.powf : (⟨S16384x1000, .f32⟩ : BufTy).Contents (Elt F) → (⟨S16384x1000, .f32⟩ : BufTy).Contents (Elt F) → (⟨S16384x1000, .f32⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S16384x1000, .f32⟩) main_call2_v1) (broadcastInDim S16384x1000 ![] bcast_S_S16384x1000),
    TRef.ternary (TRef.of (T := ⟨S16384x1000, .i1⟩) main_v38) (TRef.of (T := ⟨S16384x1000, .f32⟩) main_v44) (TRef.of (T := ⟨S16384x1000, .f32⟩) main_call2_v1) (TRef.of (T := ⟨S16384x1000, .f32⟩) main_v45) select ]

/-- The one-hot mask, the weights and the reweighted logits. -/
abbrev opsE : List (HloOp τ sig (Elt F)) :=
  [ TRef.unary (TRef.of (T := ⟨S16384, .i32⟩) main_arg1) (TRef.of (T := ⟨S16384x1, .i32⟩) main_call3_v0) (broadcastInDim S16384x1 ![0] bcast_S16384_S16384x1_0),
    TRef.nullary (TRef.of (T := ⟨S1x1000, .i32⟩) main_call3_v1) (iotaInDim S1x1000 32 1),
    TRef.unary (TRef.of (T := ⟨S16384x1, .i32⟩) main_call3_v0) (TRef.of (T := ⟨S16384x1000, .i32⟩) main_call3_v2) (broadcastInDim S16384x1000 ![0, 1] bcast_S16384x1_S16384x1000_0_1),
    TRef.unary (TRef.of (T := ⟨S1x1000, .i32⟩) main_call3_v1) (TRef.of (T := ⟨S16384x1000, .i32⟩) main_call3_v3) (broadcastInDim S16384x1000 ![0, 1] bcast_S1x1000_S16384x1000_0_1),
    TRef.binary (TRef.of (T := ⟨S16384x1000, .i32⟩) main_call3_v2) (TRef.of (T := ⟨S16384x1000, .i32⟩) main_call3_v3) (TRef.of (T := ⟨S16384x1000, .i1⟩) main_v46) (cmpi .eq),
    binary main_v23 main_v45 main_v47 (mulf : (⟨S16384x1000, .f32⟩ : BufTy).Contents (Elt F) → (⟨S16384x1000, .f32⟩ : BufTy).Contents (Elt F) → (⟨S16384x1000, .f32⟩ : BufTy).Contents (Elt F)),
    nullary main_cst_10 (constant S_ .f32 0x3F800000#32),
    TRef.unary (TRef.of (T := ⟨S_, .f32⟩) main_cst_10) (TRef.of (T := ⟨S_, .f32⟩) main_call4_v0) id,
    TRef.unary (TRef.of (T := ⟨S_, .f32⟩) main_call4_v0) (TRef.of (T := ⟨S16384x1000, .f32⟩) main_call4_v1) (broadcastInDim S16384x1000 ![] bcast_S_S16384x1000),
    TRef.ternary (TRef.of (T := ⟨S16384x1000, .i1⟩) main_v46) (TRef.of (T := ⟨S16384x1000, .f32⟩) main_call4_v1) (TRef.of (T := ⟨S16384x1000, .f32⟩) main_v47) (TRef.of (T := ⟨S16384x1000, .f32⟩) main_v48) select,
    nullary main_cst_11 (constant S_ .f32 0x3C23D70A#32),
    unary main_cst_11 main_v49 (broadcastInDim S16384x1000 ![] bcast_S_S16384x1000 : (⟨S_, .f32⟩ : BufTy).Contents (Elt F) → (⟨S16384x1000, .f32⟩ : BufTy).Contents (Elt F)),
    binary main_v48 main_v49 main_v50 (addf : (⟨S16384x1000, .f32⟩ : BufTy).Contents (Elt F) → (⟨S16384x1000, .f32⟩ : BufTy).Contents (Elt F) → (⟨S16384x1000, .f32⟩ : BufTy).Contents (Elt F)),
    unary main_v50 main_v51 (Host.log : (⟨S16384x1000, .f32⟩ : BufTy).Contents (Elt F) → (⟨S16384x1000, .f32⟩ : BufTy).Contents (Elt F)),
    binary main_arg0 main_v51 main_v52 (addf : (⟨S16384x1000, .f32⟩ : BufTy).Contents (Elt F) → (⟨S16384x1000, .f32⟩ : BufTy).Contents (Elt F) → (⟨S16384x1000, .f32⟩ : BufTy).Contents (Elt F)) ]

/-- The log-softmax of the reweighted logits. -/
abbrev opsF : List (HloOp τ sig (Elt F)) :=
  [ TRef.nullary (TRef.of (T := ⟨S_, .f32⟩) main_call5_cst) (constant S_ .f32 0xFF800000#32),
    TRef.binary (TRef.of (T := ⟨S16384x1000, .f32⟩) main_v52) (TRef.of (T := ⟨S_, .f32⟩) main_call5_cst) (TRef.of (T := ⟨S16384, .f32⟩) main_call5_v0) (fun x v => Host.reduce FloatOps.maximumf x v reducesTo_S16384x1000_S16384_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S16384, .f32⟩) main_call5_v1) (broadcastInDim S16384 ![] bcast_S_S16384),
    TRef.binary (TRef.of (T := ⟨S16384, .f32⟩) main_call5_v1) (TRef.of (T := ⟨S16384, .f32⟩) main_call5_v0) (TRef.of (T := ⟨S16384, .f32⟩) main_call5_v2) maximumf,
    TRef.unary (TRef.of (T := ⟨S16384, .f32⟩) main_call5_v2) (TRef.of (T := ⟨S16384x1, .f32⟩) main_call5_v3) (broadcastInDim S16384x1 ![0] bcast_S16384_S16384x1_0),
    TRef.unary (TRef.of (T := ⟨S16384x1, .f32⟩) main_call5_v3) (TRef.of (T := ⟨S16384x1000, .f32⟩) main_call5_v4) (broadcastInDim S16384x1000 ![0, 1] bcast_S16384x1_S16384x1000_0_1),
    TRef.binary (TRef.of (T := ⟨S16384x1000, .f32⟩) main_v52) (TRef.of (T := ⟨S16384x1000, .f32⟩) main_call5_v4) (TRef.of (T := ⟨S16384x1000, .f32⟩) main_call5_v5) subf,
    TRef.unary (TRef.of (T := ⟨S16384x1000, .f32⟩) main_call5_v5) (TRef.of (T := ⟨S16384x1000, .f32⟩) main_call5_v6) Host.exp,
    TRef.nullary (TRef.of (T := ⟨S_, .f32⟩) main_call5_cst_1) (constant S_ .f32 0x00000000#32),
    TRef.binary (TRef.of (T := ⟨S16384x1000, .f32⟩) main_call5_v6) (TRef.of (T := ⟨S_, .f32⟩) main_call5_cst_1) (TRef.of (T := ⟨S16384, .f32⟩) main_call5_v7) (fun x v => Host.reduceAdd x v reducesTo_S16384x1000_S16384_d1 h_S_),
    TRef.unary (TRef.of (T := ⟨S16384, .f32⟩) main_call5_v7) (TRef.of (T := ⟨S16384x1, .f32⟩) main_call5_v8) (broadcastInDim S16384x1 ![0] bcast_S16384_S16384x1_0),
    TRef.unary (TRef.of (T := ⟨S16384x1, .f32⟩) main_call5_v8) (TRef.of (T := ⟨S16384x1, .f32⟩) main_call5_v9) Host.log,
    TRef.unary (TRef.of (T := ⟨S16384x1, .f32⟩) main_call5_v9) (TRef.of (T := ⟨S16384x1000, .f32⟩) main_call5_v10) (broadcastInDim S16384x1000 ![0, 1] bcast_S16384x1_S16384x1000_0_1),
    TRef.binary (TRef.of (T := ⟨S16384x1000, .f32⟩) main_call5_v5) (TRef.of (T := ⟨S16384x1000, .f32⟩) main_call5_v10) (TRef.of (T := ⟨S16384x1000, .f32⟩) main_v53) subf ]

/-- The target's log-probability, negated, and the mean over the rows. -/
abbrev opsG : List (HloOp τ sig (Elt F)) :=
  [ unary main_arg1 main_v54 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S16384x1, .i32⟩) main_call6_v0) (broadcastInDim S16384x1 ![] bcast_S_S16384x1),
    TRef.binary (TRef.of (T := ⟨S16384x1, .i32⟩) main_v54) (TRef.of (T := ⟨S16384x1, .i32⟩) main_call6_v0) (TRef.of (T := ⟨S16384x1, .i1⟩) main_call6_v1) (cmpi .slt),
    TRef.nullary (TRef.of (T := ⟨S_, .i32⟩) main_call6_c_0) (constantI S_ 32 1000#32),
    TRef.unary (TRef.of (T := ⟨S_, .i32⟩) main_call6_c_0) (TRef.of (T := ⟨S16384x1, .i32⟩) main_call6_v2) (broadcastInDim S16384x1 ![] bcast_S_S16384x1),
    TRef.binary (TRef.of (T := ⟨S16384x1, .i32⟩) main_v54) (TRef.of (T := ⟨S16384x1, .i32⟩) main_call6_v2) (TRef.of (T := ⟨S16384x1, .i32⟩) main_call6_v3) addi,
    TRef.ternary (TRef.of (T := ⟨S16384x1, .i1⟩) main_call6_v1) (TRef.of (T := ⟨S16384x1, .i32⟩) main_call6_v3) (TRef.of (T := ⟨S16384x1, .i32⟩) main_v54) (TRef.of (T := ⟨S16384x1, .i32⟩) main_call6_v4) select,
    TRef.reshape (TRef.of (T := ⟨S16384x1, .i32⟩) main_call6_v4) (TRef.of (T := ⟨S16384x1x1, .i32⟩) main_call6_v5) rfl shapeCasts_S16384x1_S16384x1x1,
    TRef.nullary (TRef.of (T := ⟨S1, .i32⟩) main_call6_c_1) (constantI S1 32 999#32),
    TRef.nullary (TRef.of (T := ⟨S_, .i32⟩) main_call6_c_2) (constantI S_ 32 0#32),
    TRef.unary (TRef.of (T := ⟨S_, .i32⟩) main_call6_c_2) (TRef.of (T := ⟨S16384x1x1, .i32⟩) main_call6_v6) (broadcastInDim S16384x1x1 ![] bcast_S_S16384x1x1),
    TRef.binary (TRef.of (T := ⟨S16384x1x1, .i32⟩) main_call6_v5) (TRef.of (T := ⟨S16384x1x1, .i32⟩) main_call6_v6) (TRef.of (T := ⟨S16384x1x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S16384x1x1, .i32⟩) main_call6_v9) (broadcastInDim S16384x1x1 ![0, 1, 2] bcast_S1x1x1_S16384x1x1_0_1_2),
    TRef.binary (TRef.of (T := ⟨S16384x1x1, .i32⟩) main_call6_v5) (TRef.of (T := ⟨S16384x1x1, .i32⟩) main_call6_v9) (TRef.of (T := ⟨S16384x1x1, .i1⟩) main_call6_v10) (cmpi .sle),
    TRef.binary (TRef.of (T := ⟨S16384x1x1, .i1⟩) main_call6_v7) (TRef.of (T := ⟨S16384x1x1, .i1⟩) main_call6_v10) (TRef.of (T := ⟨S16384x1x1, .i1⟩) main_call6_v11) andi,
    TRef.nullary (TRef.of (T := ⟨S_, .i1⟩) main_call6_c_3) (constantI S_ 1 1#1),
    TRef.binary (TRef.of (T := ⟨S16384x1x1, .i1⟩) main_call6_v11) (TRef.of (T := ⟨S_, .i1⟩) main_call6_c_3) (TRef.of (T := ⟨S16384x1, .i1⟩) main_call6_v12) (fun x v => Host.reduce IntOp.andi x v reducesTo_S16384x1x1_S16384x1_d2 h_S_),
    TRef.binary (TRef.of (T := ⟨S16384x1000, .f32⟩) main_v53) (TRef.of (T := ⟨S16384x1x1, .i32⟩) main_call6_v5) (TRef.of (T := ⟨S16384x1, .f32⟩) main_call6_v13) (fun x i => Host.gather gather_S16384x1000_S16384x1x1_S16384x1_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S16384x1, .f32⟩) main_call6_v14) (broadcastInDim S16384x1 ![] bcast_S_S16384x1),
    TRef.ternary (TRef.of (T := ⟨S16384x1, .i1⟩) main_call6_v12) (TRef.of (T := ⟨S16384x1, .f32⟩) main_call6_v13) (TRef.of (T := ⟨S16384x1, .f32⟩) main_call6_v14) (TRef.of (T := ⟨S16384x1, .f32⟩) main_v55) select,
    reshape main_v55 main_v56 rfl shapeCasts_S16384x1_S16384,
    unary main_v56 main_v57 (Host.negf : (⟨S16384, .f32⟩ : BufTy).Contents (Elt F) → (⟨S16384, .f32⟩ : BufTy).Contents (Elt F)),
    nullary main_cst_12 (constant S_ .f32 0x00000000#32),
    binary main_v57 main_cst_12 main_v58 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_13 (constant S_ .f32 0x46800000#32),
    binary main_v58 main_cst_13 main_v59 (Host.divf : (⟨S_, .f32⟩ : BufTy).Contents (Elt F) → (⟨S_, .f32⟩ : BufTy).Contents (Elt F) → (⟨S_, .f32⟩ : BufTy).Contents (Elt F)) ]

set_option maxRecDepth 8192 in
/-- The operation list is the seven stretches in order. -/
theorem ops_split : (ops : List (HloOp τ sig (Elt F))) = opsA ++ (opsB ++ (opsC ++ (opsD ++ (opsE ++ (opsF ++ opsG))))) := rfl

/-! ## What each stretch keeps -/

theorem keepA_arg0 (W : Valuation τ sig (Elt F)) :
    after opsA W (Proc.devRef .tc main_arg0) = W (Proc.devRef .tc main_arg0) := by
  after_results_simp
theorem keepA_arg1 (W : Valuation τ sig (Elt F)) :
    after opsA W (Proc.devRef .tc main_arg1) = W (Proc.devRef .tc main_arg1) := by
  after_results_simp
theorem keepB_arg0 (W : Valuation τ sig (Elt F)) :
    after opsB W (Proc.devRef .tc main_arg0) = W (Proc.devRef .tc main_arg0) := by
  after_results_simp
theorem keepB_arg1 (W : Valuation τ sig (Elt F)) :
    after opsB W (Proc.devRef .tc main_arg1) = W (Proc.devRef .tc main_arg1) := by
  after_results_simp
theorem keepB_v23 (W : Valuation τ sig (Elt F)) :
    after opsB W (Proc.devRef .tc main_v23) = W (Proc.devRef .tc main_v23) := by
  after_results_simp
theorem keepC_arg0 (W : Valuation τ sig (Elt F)) :
    after opsC W (Proc.devRef .tc main_arg0) = W (Proc.devRef .tc main_arg0) := by
  after_results_simp
theorem keepC_arg1 (W : Valuation τ sig (Elt F)) :
    after opsC W (Proc.devRef .tc main_arg1) = W (Proc.devRef .tc main_arg1) := by
  after_results_simp
theorem keepC_v23 (W : Valuation τ sig (Elt F)) :
    after opsC W (Proc.devRef .tc main_v23) = W (Proc.devRef .tc main_v23) := by
  after_results_simp
theorem keepC_v34 (W : Valuation τ sig (Elt F)) :
    after opsC W (Proc.devRef .tc main_v34) = W (Proc.devRef .tc main_v34) := by
  after_results_simp
theorem keepD_arg0 (W : Valuation τ sig (Elt F)) :
    after opsD W (Proc.devRef .tc main_arg0) = W (Proc.devRef .tc main_arg0) := by
  after_results_simp
theorem keepD_arg1 (W : Valuation τ sig (Elt F)) :
    after opsD W (Proc.devRef .tc main_arg1) = W (Proc.devRef .tc main_arg1) := by
  after_results_simp
theorem keepD_v23 (W : Valuation τ sig (Elt F)) :
    after opsD W (Proc.devRef .tc main_v23) = W (Proc.devRef .tc main_v23) := by
  after_results_simp
theorem keepE_arg1 (W : Valuation τ sig (Elt F)) :
    after opsE W (Proc.devRef .tc main_arg1) = W (Proc.devRef .tc main_arg1) := by
  after_results_simp
theorem keepF_arg1 (W : Valuation τ sig (Elt F)) :
    after opsF W (Proc.devRef .tc main_arg1) = W (Proc.devRef .tc main_arg1) := by
  after_results_simp

/-! ## What each stretch computes -/

/-- Contents carried to a typed reference's buffer and back are the contents (the operations of an inlined function
    read and write their buffers through such a transport). -/
theorem roundtrip {sg : RefSig} {Val : EltTy → Type} {T : BufTy} (x : StableHlo.TRef sg T) (v : T.Contents Val) :
    x.ofBuf (x.toBuf v) = v := by
  obtain ⟨r, rfl, _, _⟩ := x
  rfl

set_option maxRecDepth 8192 in
set_option maxHeartbeats 4000000 in
theorem stageA (W : Valuation τ sig (Elt F)) :
    after opsA W (Proc.devRef .tc main_v23) = val_main_v23 (F := F) (W (Proc.devRef .tc main_arg1)) (W (Proc.devRef .tc main_arg2)) := by
  after_results_simp <;> rfl

set_option maxRecDepth 8192 in
set_option maxHeartbeats 4000000 in
theorem stageB (W : Valuation τ sig (Elt F)) :
    after opsB W (Proc.devRef .tc main_v34) = val_main_v34 (F := F) (W (Proc.devRef .tc main_arg0)) := by
  after_results_simp <;> rfl

set_option maxRecDepth 100000 in
set_option maxHeartbeats 4000000 in
theorem stageC (W : Valuation τ sig (Elt F)) (x0 : (⟨S16384x1000, .f32⟩ : BufTy).Contents (Elt F))
    (h34 : W (Proc.devRef .tc main_v34) = val_main_v34 (F := F) x0) :
    after opsC W (Proc.devRef .tc main_v36) = val_main_v36 (F := F) x0 (W (Proc.devRef .tc main_arg1)) := by
  after_results_simp
  rw [h34]
  simp only [roundtrip]
  rfl

set_option maxRecDepth 8192 in
set_option maxHeartbeats 4000000 in
theorem stageD (W : Valuation τ sig (Elt F)) (x0 : (⟨S16384x1000, .f32⟩ : BufTy).Contents (Elt F))
    (x1 : (⟨S16384, .i32⟩ : BufTy).Contents (Elt F))
    (h34 : W (Proc.devRef .tc main_v34) = val_main_v34 (F := F) x0) (h36 : W (Proc.devRef .tc main_v36) = val_main_v36 (F := F) x0 x1) :
    after opsD W (Proc.devRef .tc main_v45) = val_main_v45 (F := F) x0 x1 := by
  after_results_simp
  rw [h34, h36]
  rfl

set_option maxRecDepth 8192 in
set_option maxHeartbeats 4000000 in
theorem stageE (W : Valuation τ sig (Elt F)) (x2 : (⟨S1000, .f32⟩ : BufTy).Contents (Elt F))
    (h23 : W (Proc.devRef .tc main_v23) = val_main_v23 (F := F) (W (Proc.devRef .tc main_arg1)) x2)
    (h45 : W (Proc.devRef .tc main_v45) = val_main_v45 (F := F) (W (Proc.devRef .tc main_arg0)) (W (Proc.devRef .tc main_arg1))) :
    after opsE W (Proc.devRef .tc main_v52) = val_main_v52 (F := F) (W (Proc.devRef .tc main_arg0)) (W (Proc.devRef .tc main_arg1)) x2 := by
  after_results_simp
  rw [h23, h45]
  rfl

set_option maxRecDepth 8192 in
set_option maxHeartbeats 4000000 in
theorem stageF (W : Valuation τ sig (Elt F)) (x0 : (⟨S16384x1000, .f32⟩ : BufTy).Contents (Elt F))
    (x1 : (⟨S16384, .i32⟩ : BufTy).Contents (Elt F)) (x2 : (⟨S1000, .f32⟩ : BufTy).Contents (Elt F))
    (h52 : W (Proc.devRef .tc main_v52) = val_main_v52 (F := F) x0 x1 x2) :
    after opsF W (Proc.devRef .tc main_v53) = val_main_v53 (F := F) x0 x1 x2 := by
  after_results_simp
  rw [h52]
  simp only [roundtrip]
  rfl

set_option maxRecDepth 100000 in
set_option maxHeartbeats 4000000 in
theorem stageG (W : Valuation τ sig (Elt F)) (x0 : (⟨S16384x1000, .f32⟩ : BufTy).Contents (Elt F))
    (x2 : (⟨S1000, .f32⟩ : BufTy).Contents (Elt F))
    (h53 : W (Proc.devRef .tc main_v53) = val_main_v53 (F := F) x0 (W (Proc.devRef .tc main_arg1)) x2) :
    after opsG W (Proc.devRef .tc main_v59) = val_main_v59 (F := F) x0 (W (Proc.devRef .tc main_arg1)) x2 := by
  after_results_simp
  rw [h53]
  simp only [roundtrip]
  rfl

/-! ## The run -/

/-- The seven stretches composed: from the launch contents the result buffer ends at the last stage of the three
    arguments. -/
theorem result_eq (m : (ℓ : Loc nD τ sig) → Buf (Elt F) ℓ) (c : Dev nD) :
    after (ops (F := F)) (launchContents m c) (Proc.devRef .tc main_v59)
      = val_main_v59 (F := F) (m ((c.tc : Thread nD τ).loc main_arg0)) (m ((c.tc : Thread nD τ).loc main_arg1))
          (m ((c.tc : Thread nD τ).loc main_arg2)) := by
  rw [ops_split]
  simp only [after_append]
  -- the valuations between the stretches
  generalize hW0 : launchContents m c = W0
  have a0 : W0 (Proc.devRef .tc main_arg0) = m ((c.tc : Thread nD τ).loc main_arg0) := by rw [← hW0]
  have a1 : W0 (Proc.devRef .tc main_arg1) = m ((c.tc : Thread nD τ).loc main_arg1) := by rw [← hW0]
  have a2 : W0 (Proc.devRef .tc main_arg2) = m ((c.tc : Thread nD τ).loc main_arg2) := by rw [← hW0]
  generalize hW1 : after opsA W0 = W1
  have b0 : W1 (Proc.devRef .tc main_arg0) = W0 (Proc.devRef .tc main_arg0) := by rw [← hW1]; exact keepA_arg0 W0
  have b1 : W1 (Proc.devRef .tc main_arg1) = W0 (Proc.devRef .tc main_arg1) := by rw [← hW1]; exact keepA_arg1 W0
  have b23 : W1 (Proc.devRef .tc main_v23) = val_main_v23 (F := F) (W0 (Proc.devRef .tc main_arg1)) (W0 (Proc.devRef .tc main_arg2)) := by
    rw [← hW1]; exact stageA W0
  generalize hW2 : after opsB W1 = W2
  have c0 : W2 (Proc.devRef .tc main_arg0) = W1 (Proc.devRef .tc main_arg0) := by rw [← hW2]; exact keepB_arg0 W1
  have c1 : W2 (Proc.devRef .tc main_arg1) = W1 (Proc.devRef .tc main_arg1) := by rw [← hW2]; exact keepB_arg1 W1
  have c23 : W2 (Proc.devRef .tc main_v23) = W1 (Proc.devRef .tc main_v23) := by rw [← hW2]; exact keepB_v23 W1
  have c34 : W2 (Proc.devRef .tc main_v34) = val_main_v34 (F := F) (W1 (Proc.devRef .tc main_arg0)) := by rw [← hW2]; exact stageB W1
  generalize hW3 : after opsC W2 = W3
  have d0 : W3 (Proc.devRef .tc main_arg0) = W2 (Proc.devRef .tc main_arg0) := by rw [← hW3]; exact keepC_arg0 W2
  have d1 : W3 (Proc.devRef .tc main_arg1) = W2 (Proc.devRef .tc main_arg1) := by rw [← hW3]; exact keepC_arg1 W2
  have d23 : W3 (Proc.devRef .tc main_v23) = W2 (Proc.devRef .tc main_v23) := by rw [← hW3]; exact keepC_v23 W2
  have d34 : W3 (Proc.devRef .tc main_v34) = W2 (Proc.devRef .tc main_v34) := by rw [← hW3]; exact keepC_v34 W2
  have d36 : W3 (Proc.devRef .tc main_v36) = val_main_v36 (F := F) (W1 (Proc.devRef .tc main_arg0)) (W2 (Proc.devRef .tc main_arg1)) := by
    rw [← hW3]; exact stageC W2 _ c34
  generalize hW4 : after opsD W3 = W4
  have e0 : W4 (Proc.devRef .tc main_arg0) = W3 (Proc.devRef .tc main_arg0) := by rw [← hW4]; exact keepD_arg0 W3
  have e1 : W4 (Proc.devRef .tc main_arg1) = W3 (Proc.devRef .tc main_arg1) := by rw [← hW4]; exact keepD_arg1 W3
  have e23 : W4 (Proc.devRef .tc main_v23) = W3 (Proc.devRef .tc main_v23) := by rw [← hW4]; exact keepD_v23 W3
  have e45 : W4 (Proc.devRef .tc main_v45) = val_main_v45 (F := F) (W1 (Proc.devRef .tc main_arg0)) (W2 (Proc.devRef .tc main_arg1)) := by
    rw [← hW4]; exact stageD W3 _ _ (d34.trans c34) d36
  -- every valuation holds the arguments as launched
  have x0 : ∀ {W : Valuation τ sig (Elt F)}, W (Proc.devRef .tc main_arg0) = W0 (Proc.devRef .tc main_arg0) → W (Proc.devRef .tc main_arg0) = m ((c.tc : Thread nD τ).loc main_arg0) :=
    fun h => h.trans a0
  have w1_0 : W1 (Proc.devRef .tc main_arg0) = m ((c.tc : Thread nD τ).loc main_arg0) := b0.trans a0
  have w1_1 : W1 (Proc.devRef .tc main_arg1) = m ((c.tc : Thread nD τ).loc main_arg1) := b1.trans a1
  have w2_1 : W2 (Proc.devRef .tc main_arg1) = m ((c.tc : Thread nD τ).loc main_arg1) := c1.trans w1_1
  have w4_0 : W4 (Proc.devRef .tc main_arg0) = m ((c.tc : Thread nD τ).loc main_arg0) := e0.trans (d0.trans (c0.trans w1_0))
  have w4_1 : W4 (Proc.devRef .tc main_arg1) = m ((c.tc : Thread nD τ).loc main_arg1) := e1.trans (d1.trans w2_1)
  have w4_23 : W4 (Proc.devRef .tc main_v23) = val_main_v23 (F := F) (W4 (Proc.devRef .tc main_arg1)) (m ((c.tc : Thread nD τ).loc main_arg2)) := by
    rw [e23, d23, c23, b23, a1, a2, w4_1]
  have w4_45 : W4 (Proc.devRef .tc main_v45) = val_main_v45 (F := F) (W4 (Proc.devRef .tc main_arg0)) (W4 (Proc.devRef .tc main_arg1)) := by
    rw [e45, w1_0, w2_1, w4_0, w4_1]
  generalize hW5 : after opsE W4 = W5
  have f1 : W5 (Proc.devRef .tc main_arg1) = W4 (Proc.devRef .tc main_arg1) := by rw [← hW5]; exact keepE_arg1 W4
  have f52 : W5 (Proc.devRef .tc main_v52) = val_main_v52 (F := F) (W4 (Proc.devRef .tc main_arg0)) (W4 (Proc.devRef .tc main_arg1)) (m ((c.tc : Thread nD τ).loc main_arg2)) := by
    rw [← hW5]; exact stageE W4 _ w4_23 w4_45
  generalize hW6 : after opsF W5 = W6
  have g1 : W6 (Proc.devRef .tc main_arg1) = W5 (Proc.devRef .tc main_arg1) := by rw [← hW6]; exact keepF_arg1 W5
  have g53 : W6 (Proc.devRef .tc main_v53) = val_main_v53 (F := F) (W4 (Proc.devRef .tc main_arg0)) (W4 (Proc.devRef .tc main_arg1)) (m ((c.tc : Thread nD τ).loc main_arg2)) := by
    rw [← hW6]; exact stageF W5 _ _ _ f52
  have w6_1 : W6 (Proc.devRef .tc main_arg1) = m ((c.tc : Thread nD τ).loc main_arg1) := g1.trans (f1.trans w4_1)
  have g53' : W6 (Proc.devRef .tc main_v53) = val_main_v53 (F := F) (m ((c.tc : Thread nD τ).loc main_arg0)) (W6 (Proc.devRef .tc main_arg1)) (m ((c.tc : Thread nD τ).loc main_arg2)) := by
    rw [g53, w4_0, w4_1, w6_1]
  rw [stageG W6 _ _ g53', w6_1]

set_option maxRecDepth 8192 in
set_option maxHeartbeats 4000000 in
/-- On every device, for any float values, from any memory with zero counters: every weakly fair execution of the
    reference terminates with its result at the last stage of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59)
          = val_main_v59 (F := F) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v59).trans (result_eq m c),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.Seesaw.RefRun

end
-- ==== Proof.Spec.lean ====
/-
  A row of the Seesaw loss, as one function on the extended reals.

  A row has 1000 logits `x`, the class counts `cc` and a target class `t`.
    • softmax: `prob x j = exp (x j − max x) / ∑ₖ exp (x k − max x)`, and `logSoft x j = (x j − max x) − log ∑ₖ exp (x k − max x)`;
    • mitigation: `(cc j / max (cc t) 1 + ε) ^ p` where `cc j < max (cc t) 1`, else `1`;
    • compensation: `(prob x j / (prob x t + ε)) ^ q` where `prob x j > prob x t`, else `1` — written with the power
      (`compPow`) or, the same number for finite logits, as `exp (q · (logSoft x j − log (prob x t + ε)))` (`compExp`);
    • the weight of class `j` is `1` at the target and mitigation · compensation elsewhere; the reweighted logits are
      `x j + log (weight j + ε)`, and the row's loss is minus their log-softmax at the target.
  The loss of the batch is the mean of the rows' losses: their sum from zero, divided by the number of rows.
  Every float literal stays the word it is printed as.
-/
import Idealize.ShloMosaic.PureOps.Ideal
import Idealize.ShloMosaic.PureOps.Ideal.Laws
import Idealize.ShloMosaic.Lib.ValueIdx

noncomputable section

namespace Cert.Seesaw

open Idealize.ShloMosaic

/-- The words the two programs carry: −∞, ε = f32(0.01), 1, p = f32(0.6), q = 1.5, 0. -/
abbrev negInf : EReal := Ideal.ofBits .f32 0xFF800000#32
abbrev epsV : EReal := Ideal.ofBits .f32 0x3C23D70A#32
abbrev oneV : EReal := Ideal.ofBits .f32 0x3F800000#32
abbrev pExp : EReal := Ideal.ofBits .f32 0x3F19999A#32
abbrev qExp : EReal := Ideal.ofBits .f32 0x3FC00000#32
abbrev zeroV : EReal := Ideal.ofBits .f32 0x00000000#32

/-- A row's maximum, folded from −∞. -/
def rowMax (y : Fin 1000 → EReal) : EReal := (Finset.univ : Finset (Fin 1000)).fold max negInf y

/-- A row shifted by its maximum. -/
def shifted (y : Fin 1000 → EReal) (j : Fin 1000) : EReal := y j - rowMax y

/-- The softmax denominator. -/
def den (y : Fin 1000 → EReal) : EReal := ∑ k : Fin 1000, Ideal.exp (shifted y k)

/-- The softmax. -/
def prob (y : Fin 1000 → EReal) (j : Fin 1000) : EReal := Ideal.div (Ideal.exp (shifted y j)) (den y)

/-- The log-softmax, as both programs compute it: shift, then subtract the log of the denominator. -/
def logSoft (y : Fin 1000 → EReal) (j : Fin 1000) : EReal := shifted y j - Ideal.log (den y)

/-- The target class's count, clamped below by one. -/
def clampCount (cc : Fin 1000 → EReal) (t : Fin 1000) : EReal := max (cc t) oneV

/-- The mitigation factor of class `j` for target class `t`. -/
def mitig (cc : Fin 1000 → EReal) (t j : Fin 1000) : EReal :=
  Scalar.select (Ideal.cmp .olt (cc j) (clampCount cc t))
    (Ideal.pow (Ideal.div (cc j) (clampCount cc t) + epsV) pExp) oneV

/-- The compensation factor, with the power. -/
def compPow (x : Fin 1000 → EReal) (t j : Fin 1000) : EReal :=
  Scalar.select (Ideal.cmp .ogt (prob x j) (prob x t))
    (Ideal.pow (Ideal.div (prob x j) (prob x t + epsV)) qExp) oneV

/-- The compensation factor, in log space. -/
def compExp (x : Fin 1000 → EReal) (t j : Fin 1000) : EReal :=
  Scalar.select (Ideal.cmp .ogt (prob x j) (prob x t))
    (Ideal.exp (qExp * (logSoft x j - Ideal.log (prob x t + epsV)))) oneV

/-- The weight of class `j`: one at the target, mitigation times compensation elsewhere. -/
def weight (cc : Fin 1000 → EReal) (t : Fin 1000) (comp : Fin 1000 → EReal) (j : Fin 1000) : EReal :=
  if j = t then oneV else mitig cc t j * comp j

/-- The reweighted logits. -/
def reweighted (cc x : Fin 1000 → EReal) (t : Fin 1000) (comp : Fin 1000 → EReal) (j : Fin 1000) : EReal :=
  x j + Ideal.log (weight cc t comp j + epsV)

/-- A row's loss, the compensation written with the power. -/
def rowLoss (cc x : Fin 1000 → EReal) (t : Fin 1000) : EReal :=
  -(logSoft (reweighted cc x t (compPow x t)) t)

/-- A row's loss, the compensation written in log space. -/
def rowLossLog (cc x : Fin 1000 → EReal) (t : Fin 1000) : EReal :=
  -(logSoft (reweighted cc x t (compExp x t)) t)

/-- The batch's losses: row `i` has the logits `x0 (i, ·)`, the counts `x2` and the class its target word names (the words
    are class numbers, `h`). -/
def lossVec (x0 : (⟨2, ![16384, 1000]⟩ : Shape).Idx → EReal) (x1 : (⟨1, ![16384]⟩ : Shape).Idx → BitVec 32)
    (x2 : (⟨1, ![1000]⟩ : Shape).Idx → EReal) (h : ∀ i : Fin 16384, (x1 (ValueIdx.ix1 i)).toNat < 1000) :
    (⟨1, ![16384]⟩ : Shape).Idx → EReal :=
  fun i => rowLoss (fun j => x2 (ValueIdx.ix1 j)) (fun j => x0 (ValueIdx.ix2 (i 0) j)) ⟨(x1 (ValueIdx.ix1 (i 0))).toNat, h (i 0)⟩

/-- The mean of the rows' losses, as both programs end: the sum from zero over the 16384 rows, divided by f32(16384). -/
def meanLoss (L : (⟨1, ![16384]⟩ : Shape).Idx → EReal) : EReal :=
  Ideal.div (zeroV + ∑ i : (⟨1, ![16384]⟩ : Shape).Idx, L i) (Ideal.ofBits .f32 0x46800000#32)

end Cert.Seesaw

end
-- ==== Proof.LibGatherRows.lean ====
/-
  A row-wise gather read at an index.

  The operand is a table of `N` rows and `C` columns; the start indices are one word per row, laid out as an
  `N × 1 × 1` array; the result is an `N × 1` column. Row `b` of the result reads row `b` of the table (the row axis
  is a batching axis on both sides) at the column its word names: the word read as a SIGNED integer and clamped into
  `[0, C − 1]`. This is what `take_along_axis(table, idx[:, None], axis=1)` lowers to.
  When the word is already a column's position (below `C`, with `C` at most half the word range so that the signed
  reading is the unsigned one) the entry read is the one at the word itself.
  Nothing here depends on the sizes.
-/
import Idealize.ShloMosaic.PureOps.Ideal
import Idealize.ShloMosaic.PureOps.ShapeOps
import Idealize.ShloMosaic.PureOps.Contract
import Idealize.ShloMosaic.Lib.ValueIdx

noncomputable section

namespace Cert.LibGatherRows

open Idealize.ShloMosaic Idealize.ShloMosaic.ValueIdx

variable {α : Type} {N C w : Nat}

/-- The row-wise gather at `(b, u)`, whatever the word: row `b` of the table at the column the word of row `b`
    names, read signed and clamped. -/
theorem gather_rows_clamp (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (b : Fin N) (u : Fin 1) (hC : 0 < C) :
    Host.gather d x idx (ix2 b u)
      = x (ix2 b ⟨min (idx (ix3 b u (0 : Fin 1))).toInt.toNat (C - 1), by omega⟩) := by
  have hsl : d.sliceSizes 1 = 1 := d.slice_collapsed 1 (by rw [hcoll]; exact List.mem_singleton.mpr rfl)
  unfold Host.gather
  refine congrArg x ?_
  cases d with
  | mk od cd ob sb sm iv ss wf =>
    obtain rfl : od = [] := hoff
    obtain rfl : cd = [1] := hcoll
    obtain rfl : ob = [0] := hob
    obtain rfl : sb = [0] := hsb
    obtain rfl : sm = [1] := hsim
    obtain rfl : iv = 2 := hivd
    replace hsl : ss 1 = 1 := hsl
    funext a
    match a with
    | ⟨0, _⟩ =>
      apply Fin.ext
      show GatherDims.start _ (ix2 b u) idx 0 + GatherDims.batchCoord _ (ix2 b u) 0 + GatherDims.offCoord _ (ix2 b u) 0
        = b.val
      rw [GatherDims.offCoord_eq_zero _ _ _ (by decide : (0 : Fin 2) ∉ (List.finRange 2).filter (· ∉ [1] ++ [0]))]
      unfold GatherDims.start
      rw [dif_neg (by decide : (0 : Fin 2) ∉ [1]), Nat.zero_add, Nat.add_zero]
      unfold GatherDims.batchCoord
      rw [dif_pos (List.mem_singleton.mpr rfl)]
      rfl
    | ⟨1, _⟩ =>
      apply Fin.ext
      show GatherDims.start _ (ix2 b u) idx 1 + GatherDims.batchCoord _ (ix2 b u) 1 + GatherDims.offCoord _ (ix2 b u) 1
        = min (idx (ix3 b u (0 : Fin 1))).toInt.toNat (C - 1)
      rw [GatherDims.batchCoord_eq_zero _ _ _ (by decide : (1 : Fin 2) ∉ [0]),
        GatherDims.offCoord_eq_zero _ _ _ (by decide : (1 : Fin 2) ∉ (List.finRange 2).filter (· ∉ [1] ++ [0]))]
      simp only [Nat.add_zero]
      unfold GatherDims.start
      rw [dif_pos (List.mem_singleton.mpr rfl)]
      show min (idx _).toInt.toNat (C - ss 1) = _
      rw [hsl]
      refine congrArg (fun k => min (idx k).toInt.toNat (C - 1)) ?_
      funext e
      match e with
      | ⟨0, _⟩ => exact Fin.ext rfl
      | ⟨1, _⟩ => exact Fin.ext rfl
      | ⟨2, _⟩ => exact Fin.ext rfl

/-- The row-wise gather at `(b, u)` when the word of row `b` is a column's position: the table at `(b, word)`. -/
theorem gather_rows (d : GatherDims ⟨2, ![N, C]⟩ ⟨3, ![N, 1, 1]⟩ ⟨2, ![N, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![N, C]⟩ : Shape).Idx → α) (idx : IVec ⟨3, ![N, 1, 1]⟩ w) (b : Fin N) (u : Fin 1)
    (hC : 2 * C ≤ 2 ^ w) (h : (idx (ix3 b u (0 : Fin 1))).toNat < C) :
    Host.gather d x idx (ix2 b u) = x (ix2 b ⟨(idx (ix3 b u (0 : Fin 1))).toNat, h⟩) := by
  have hC0 : 0 < C := by omega
  rw [gather_rows_clamp d hoff hcoll hob hsb hsim hivd x idx b u hC0]
  refine congrArg x (congrArg (fun r => ix2 b r) (Fin.ext ?_))
  show min (idx (ix3 b u (0 : Fin 1))).toInt.toNat (C - 1) = (idx (ix3 b u (0 : Fin 1))).toNat
  rw [BitVec.toInt_eq_toNat_of_lt (by omega), Int.toNat_natCast]
  omega

end Cert.LibGatherRows

end
-- ==== Proof.LibScatterGather1.lean ====
/-
  The accumulating scatter and the gather of a rank-1 table by a column of index words, read at an index.

  Both operations here take an operand of `N` entries and an `M × 1` column of index words, one word per update (or
  result) position: position `j` names entry `idx[j, 0]` of the operand, the word read as a SIGNED integer.
    • The scatter adds update `j` into the entry its word names, and drops it when the word names no entry; so entry
      `u` ends as its old value plus the sum of the updates whose word, read signed, is `u`.
    • The gather reads, at position `j`, the entry its word names, the word clamped into `[0, N − 1]`; when the word is
      already below `N` (and `N` is at most half the word range, so that the signed reading is the unsigned one) that
      is the entry at the word itself.
-/
import Idealize.ShloMosaic.PureOps.Ideal
import Idealize.ShloMosaic.PureOps.ShapeOps
import Idealize.ShloMosaic.PureOps.Contract
import Idealize.ShloMosaic.Lib.ValueIdx
import Idealize.ShloMosaic.Lib.StableHlo.Predicate

noncomputable section

namespace Cert.LibScatterGather1

open Idealize.ShloMosaic Idealize.ShloMosaic.ValueIdx

/-! ## The scatter -/

section Scatter

variable {N M w : Nat}

/-- A rank-1 index is its one coordinate. -/
def idxEquiv1 {n : Nat} : (⟨1, ![n]⟩ : Shape).Idx ≃ Fin n where
  toFun i := i 0
  invFun := ix1
  left_inv i := (eq_ix1 i).symm
  right_inv _ := rfl

/-- The start plus the window coordinate of update `j` on the operand's one axis is `j`'s index word, read signed:
    the axis is an inserted one (window coordinate zero) and the one the start index names. -/
theorem start_add_window (d : ScatterDims ⟨1, ![N]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (a : Fin 1) :
    d.start j idx a + (d.window j a : ℤ) = (idx (ix2 (n0 := M) (n1 := 1) (j 0) 0)).toInt := by
  obtain rfl : a = 0 := Subsingleton.elim _ _
  have hwin : d.window j 0 = 0 := by
    unfold ScatterDims.window
    rw [dif_neg]
    simp [ScatterDims.sKept, Shape.kept, hiw]
  have hm : (0 : Fin 1) ∈ d.scatterDimsToOperandDims := by rw [hsd]; exact List.mem_singleton.mpr rfl
  have hsi : d.siIdx j ⟨d.scatterDimsToOperandDims.idxOf 0, List.idxOf_lt_length_iff.2 hm⟩
      = ix2 (n0 := M) (n1 := 1) (j 0) 0 := by
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hstart : d.start j idx 0 = (idx (ix2 (n0 := M) (n1 := 1) (j 0) 0)).toInt := by
    unfold ScatterDims.start
    rw [dif_pos hm, hsi]
  rw [hstart, hwin]; simp

/-- Update `j` lands on entry `i` exactly when its index word, read signed, is `i`'s position. -/
theorem resultIdx?_iff (d : ScatterDims ⟨1, ![N]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (i : (⟨1, ![N]⟩ : Shape).Idx) :
    d.resultIdx? j idx = some i ↔ (idx (ix2 (n0 := M) (n1 := 1) (j 0) 0)).toInt = ((i 0).val : ℤ) := by
  have hT := start_add_window d hiw hsd hivd idx j
  unfold ScatterDims.resultIdx?
  constructor
  · intro h
    split at h
    · rename_i hc
      have hf := Option.some.inj h
      have h0 : (d.start j idx 0 + (d.window j 0 : ℤ)).toNat = (i 0).val := congrArg (fun f => (f 0).val) hf
      have hc0 := (hc 0).1
      rw [hT 0] at hc0 h0
      omega
    · exact absurd h (by simp)
  · intro h
    have hi : (i 0).val < N := (i 0).isLt
    have hc : ∀ a : Fin 1, 0 ≤ d.start j idx a + (d.window j a : ℤ)
        ∧ d.start j idx a + (d.window j a : ℤ) < ((⟨1, ![N]⟩ : Shape).size a : ℤ) := by
      intro a
      obtain rfl : a = 0 := Subsingleton.elim _ _
      rw [hT 0, h]
      refine ⟨by omega, ?_⟩
      show ((i 0).val : ℤ) < (N : ℤ)
      omega
    rw [dif_pos hc]
    refine congrArg some ?_
    funext a
    obtain rfl : a = 0 := Subsingleton.elim _ _
    apply Fin.ext
    show (d.start j idx 0 + (d.window j 0 : ℤ)).toNat = (i 0).val
    rw [hT 0, h]; simp

/-- The accumulating scatter at an entry: the old value plus the updates whose word names it. -/
theorem scatterAdd_apply {φ : FTy} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ φ) (idx : IVec ⟨2, ![M, 1]⟩ w) (upd : FVec Ideal ⟨1, ![M]⟩ φ)
    (i : (⟨1, ![N]⟩ : Shape).Idx) :
    Host.scatterAdd (F := Ideal) d x idx upd i
      = x i + ∑ j ∈ Finset.univ.filter (fun j : (⟨1, ![M]⟩ : Shape).Idx =>
          (idx (ix2 (n0 := M) (n1 := 1) (j 0) 0)).toInt = ((i 0).val : ℤ)), upd j := by
  show Ideal.hostScatterAdd d x idx upd i = _
  unfold Ideal.hostScatterAdd
  refine congrArg (x i + ·) ?_
  refine Finset.sum_congr ?_ (fun _ _ => rfl)
  ext j
  simp only [Finset.mem_filter, Finset.mem_univ, true_and]
  exact resultIdx?_iff d hiw hsd hivd idx j i

/-- The same with the update positions counted by `Fin M` and the entry by `Fin N`. -/
theorem scatterAdd_apply_fin {φ : FTy} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ j ∈ Finset.univ.filter (fun j : Fin M => (idx (ix2 j (0 : Fin 1))).toInt = (u.val : ℤ)),
          upd (ix1 j) := by
  rw [scatterAdd_apply d hiw hsd hivd]
  refine congrArg (x (ix1 u) + ·) ?_
  rw [Finset.sum_filter, Finset.sum_filter]
  exact (Equiv.sum_comp (idxEquiv1 (n := M)).symm _).symm

end Scatter

/-! ## The gather -/

section Gather

variable {α : Type} {N M w : Nat}

/-- The gather at position `j`, whatever the word: the entry at the word read signed and clamped. -/
theorem gather_apply_clamp (d : GatherDims ⟨1, ![N]⟩ ⟨2, ![M, 1]⟩ ⟨1, ![M]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![M, 1]⟩ w) (j : Fin M) (hN : 0 < N) :
    Host.gather d x idx (ix1 j)
      = x (ix1 ⟨min (idx (ix2 j (0 : Fin 1))).toInt.toNat (N - 1), by omega⟩) := by
  have h1 : ∀ {n : Nat} (k : Fin n), Shape.Idx.ofFin k = ix1 k := fun k => by
    funext a; obtain rfl : a = 0 := Subsingleton.elim _ _; exact Fin.ext rfl
  have h2 : StableHlo.Predicate.ixP j = ix2 j (0 : Fin 1) := by
    funext b; match b with | ⟨0, _⟩ => rfl | ⟨1, _⟩ => rfl
  rw [← h1 j, StableHlo.Predicate.gather_take d hcoll hob hsim hivd x idx j hN, h1]
  refine congrArg x (congrArg ix1 (Fin.ext ?_))
  show min (idx (StableHlo.Predicate.ixP j)).toInt.toNat (N - 1) = min (idx (ix2 j (0 : Fin 1))).toInt.toNat (N - 1)
  rw [h2]

/-- The gather at position `j` when the word is an entry's position: that entry. -/
theorem gather_apply (d : GatherDims ⟨1, ![N]⟩ ⟨2, ![M, 1]⟩ ⟨1, ![M]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![M, 1]⟩ w) (j : Fin M)
    (hN : 2 * N ≤ 2 ^ w) (h : (idx (ix2 j (0 : Fin 1))).toNat < N) :
    Host.gather d x idx (ix1 j) = x (ix1 ⟨(idx (ix2 j (0 : Fin 1))).toNat, h⟩) := by
  have hN0 : 0 < N := by omega
  rw [gather_apply_clamp d hcoll hob hsim hivd x idx j hN0]
  refine congrArg x (congrArg ix1 (Fin.ext ?_))
  show min (idx (ix2 j (0 : Fin 1))).toInt.toNat (N - 1) = (idx (ix2 j (0 : Fin 1))).toNat
  rw [BitVec.toInt_eq_toNat_of_lt (by omega), Int.toNat_natCast]
  omega

end Gather

end Cert.LibScatterGather1

end
-- ==== Proof.RefRow.lean ====
/-
  The reference, row by row: its vector of negated log-probabilities is the batch's losses, and its result their mean.

  Every stage of the reference is read at explicit coordinates: the softmax of a row of logits, the target word of a
  row (a class number, so the wrap of negative positions and the bounds check of the row-wise gather leave it alone),
  the mitigation and compensation factors, the one-hot mask, the reweighted logits and their log-softmax at the target.
-/
import proofs.«426645_j41120016892076_3_alg».proof.Proof.Spec
import proofs.«426645_j41120016892076_3_alg».proof.Proof.RefRead
import proofs.«426645_j41120016892076_3_alg».proof.Proof.LibGatherRows
import proofs.«426645_j41120016892076_3_alg».proof.Proof.LibScatterGather1
import Idealize.ShloMosaic.PureOps.Reduce
import Idealize.ShloMosaic.PureOps.Ideal.Laws
import Idealize.ShloMosaic.Lib.ValueIdx
import Idealize.ShloMosaic.Lib.ReduceAll
import Idealize.ShloMosaic.Lib.StableHlo.Predicate

noncomputable section

namespace Cert.Seesaw.Ref

open Cert.ReferenceIdeal Cert.ReferenceIdeal.Gen Cert.ReferenceIdeal.ReadP Idealize.ShloMosaic Idealize.ShloMosaic.ValueIdx

/-- An equation of indices of literal rank, by coordinates. -/
local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

open StableHlo.Predicate in
/-- A class number is not negative, so the wrap of negative positions leaves it. -/
private theorem wrap_id (w : BitVec 32) (hw : w.toNat < 1000) :
    Scalar.select (IntOp.cmpi .slt w 0#32) (IntOp.addi w 1000#32) w = w := by
  have h0 : ¬ IntOp.cmpi .slt w 0#32 = 1#1 := by
    rw [slt_iff_toNat (by omega) (by decide)]
    simp
  exact if_neg h0

open StableHlo.Predicate in
/-- A class number passes the bounds check. -/
private theorem inb (w : BitVec 32) (hw : w.toNat < 1000) :
    IntOp.andi (IntOp.cmpi .sge w 0#32) (IntOp.cmpi .sle w 999#32) = 1#1 := by
  have h1 : IntOp.cmpi .sge w 0#32 = 1#1 := (sge_iff_toNat (by omega) (by decide)).2 (by simp)
  have h2 : IntOp.cmpi .sle w 999#32 = 1#1 := (sle_iff_toNat (by omega) (by decide)).2 (by
    show w.toNat ≤ 999; omega)
  rw [h1, h2]; rfl

private theorem red2 : Shape.Reduces S16384x1x1 [2] S16384x1 := by decide

/-- A fold of and from true over one element is that element. -/
private theorem fold_and_one (f : Fin 1 → BitVec 1) :
    (Finset.univ : Finset (Fin 1)).fold IntOp.andi 1#1 f = f 0 := by
  rw [Finset.univ_unique, Finset.fold_singleton]
  show f 0 &&& 1#1 = f 0
  generalize f 0 = b
  revert b; decide

/-- The and-reduction over an axis of extent one, from true: the one element. -/
private theorem and_reduce1 (y : IVec S16384x1x1 1) (c : IVec S_ 1) (hc : c (Shape.Idx.first h_S_) = 1#1) (i : Fin 16384) (u : Fin 1) :
    Host.reduce IntOp.andi y c reducesTo_S16384x1x1_S16384x1_d2 h_S_ (ix2 i u) = y (ix3 i u (0 : Fin 1)) := by
  rw [Host.reduce_eq_fold_single IntOp.andi y c reducesTo_S16384x1x1_S16384x1_d2 red2 h_S_ (ix2 i u), hc]
  refine (fold_and_one (y ∘ red2.lift (ix2 i u))).trans ?_
  exact congrArg y (funext fun a => Fin.ext (by match a with | ⟨0, _⟩ => rfl | ⟨1, _⟩ => rfl | ⟨2, _⟩ => rfl))

private theorem red1 : Shape.Reduces S16384x1000 [1] S16384 := by decide

private theorem lift1 (i : Fin 16384) (k : Fin 1000) : red1.lift (ix1 i) k = ix2 i k :=
  funext fun a => Fin.ext (by match a with | ⟨0, _⟩ => rfl | ⟨1, _⟩ => rfl)

/-- A row's maximum, read off the one-axis maximum reduction from −∞. -/
private theorem rowMax_reduce (y : FVec Ideal S16384x1000 .f32) (c : FVec Ideal S_ .f32)
    (hc : c (Shape.Idx.first h_S_) = negInf) (i : Fin 16384) :
    Host.reduce FloatOps.maximumf y c reducesTo_S16384x1000_S16384_d1 h_S_ (ix1 i)
      = rowMax (fun j => y (ix2 i j)) := by
  rw [Host.reduce_eq_fold_single FloatOps.maximumf y c reducesTo_S16384x1000_S16384_d1 red1 h_S_ (ix1 i), hc]
  unfold rowMax
  refine congrArg (fun f => (Finset.univ : Finset (Fin 1000)).fold max negInf f) ?_
  funext k
  exact congrArg y (lift1 i k)

/-- The word 0xFF800000 denotes −∞, the least extended real. -/
private theorem negInf_bot : negInf = (⊥ : EReal) := by
  simp [negInf, Ideal.ofBits, Ideal.ieee]

/-- The maximum with −∞ in front changes nothing. -/
private theorem max_negInf (a : EReal) : max negInf a = a := by
  have h : negInf ≤ a := by rw [negInf_bot]; exact bot_le
  exact max_eq_right h

section Softmax

variable (x0 : FVec Ideal S16384x1000 .f32)

private theorem v24_at (i : Fin 16384) :
    val_main_v24 (F := Ideal) x0 (ix1 i) = rowMax (fun j => x0 (ix2 i j)) :=
  rowMax_reduce x0 _ rfl i

private theorem v26_at (i : Fin 16384) :
    val_main_v26 (F := Ideal) x0 (ix1 i) = rowMax (fun j => x0 (ix2 i j)) := by
  rw [val_main_v26_apply, v24_at, val_main_v25_apply, val_main_cst_5_apply]
  exact max_negInf _

private theorem v28_at (i : Fin 16384) (j : Fin 1000) :
    val_main_v28 (F := Ideal) x0 (ix2 i j) = rowMax (fun j => x0 (ix2 i j)) := by
  rw [val_main_v28_apply, val_main_v27_apply]
  exact (congrArg (val_main_v26 (F := Ideal) x0) (by idx1)).trans (v26_at x0 i)

private theorem v30_at (i : Fin 16384) (j : Fin 1000) :
    val_main_v30 (F := Ideal) x0 (ix2 i j) = Ideal.exp (shifted (fun j => x0 (ix2 i j)) j) := by
  rw [val_main_v30_apply, val_main_v29_apply, v28_at]
  rfl

private theorem v31_at (i : Fin 16384) :
    val_main_v31 (F := Ideal) x0 (ix1 i) = den (fun j => x0 (ix2 i j)) := by
  rw [val_main_v31_apply, val_main_cst_6_apply]
  show Ideal.ofBits .f32 0x00000000#32 + _ = _
  rw [Ideal.ofBits_zero_f32, zero_add]
  unfold den
  refine Finset.sum_congr rfl fun k _ => ?_
  exact (congrArg (val_main_v30 (F := Ideal) x0) (by idx2)).trans (v30_at x0 i k)

private theorem v33_at (i : Fin 16384) (j : Fin 1000) :
    val_main_v33 (F := Ideal) x0 (ix2 i j) = den (fun j => x0 (ix2 i j)) := by
  rw [val_main_v33_apply, val_main_v32_apply]
  exact (congrArg (val_main_v31 (F := Ideal) x0) (by idx1)).trans (v31_at x0 i)

/-- The reference's softmax at row i and class j. -/
private theorem v34_at (i : Fin 16384) (j : Fin 1000) :
    val_main_v34 (F := Ideal) x0 (ix2 i j) = prob (fun j => x0 (ix2 i j)) j := by
  rw [val_main_v34_apply, v30_at, v33_at]
  rfl

end Softmax

section Target

variable (x0 : FVec Ideal S16384x1000 .f32) (x1 : IVec S16384 32) (x2 : FVec Ideal S1000 .f32)
  (h : ∀ i : Fin 16384, (x1 (ix1 i)).toNat < 1000)

include h

/-- The wrapped target words of the first gather are the target words. -/
private theorem v5_at (i : Fin 16384) (u : Fin 1) : val_main_v5 (F := Ideal) x1 (ix2 i u) = x1 (ix1 i) := by
  rw [val_main_v5_apply]
  have e : idx_main_v5 (ix2 i u) = ix1 i := by idx1
  rw [e, val_main_v4_apply, val_main_v1_apply, val_main_v3_apply, val_main_v0_apply, val_main_v2_apply,
    val_main_c_apply, val_main_c_0_apply]
  exact wrap_id _ (h i)

/-- The count of a row's target class. -/
private theorem v6_at (i : Fin 16384) :
    val_main_v6 (F := Ideal) x1 x2 (ix1 i) = x2 (ix1 ⟨(x1 (ix1 i)).toNat, h i⟩) := by
  have e := v5_at x1 h i (0 : Fin 1)
  have hlt : (val_main_v5 (F := Ideal) x1 (ix2 i (0 : Fin 1))).toNat < 1000 := by rw [e]; exact h i
  unfold val_main_v6
  rw [Cert.LibScatterGather1.gather_apply gather_S1000_S16384x1_S16384_n_0_n_n_0_1_1 rfl rfl rfl rfl x2
    (val_main_v5 (F := Ideal) x1) i (by decide) hlt]
  exact congrArg (fun r => x2 (ix1 r)) (Fin.ext (congrArg BitVec.toNat e))

/-- The wrapped target words of a row-wise gather are the target words (first call). -/
private theorem c1v5_at (i : Fin 16384) (u v : Fin 1) :
    val_main_call1_v5 (F := Ideal) x1 (ix3 i u v) = x1 (ix1 i) := by
  rw [val_main_call1_v5_apply, val_main_call1_v4_apply, val_main_call1_v1_apply, val_main_call1_v3_apply,
    val_main_call1_v0_apply, val_main_call1_v2_apply, val_main_call1_c_apply, val_main_call1_c_0_apply,
    val_main_v35_apply]
  have e : idx_main_v35 (idx_main_call1_v5 (ix3 i u v)) = ix1 i := by
    funext a
    match a with
    | ⟨0, _⟩ => exact Fin.ext (by
        show ((i.val * 1 + u.val) * 1 + v.val) / 1 = i.val
        have hu := u.isLt; have hv := v.isLt; omega)
  rw [e]
  exact wrap_id _ (h i)

/-- The bounds check of the first row-wise gather passes. -/
private theorem c1v12_at (i : Fin 16384) (u : Fin 1) : val_main_call1_v12 (F := Ideal) x1 (ix2 i u) = 1#1 := by
  unfold val_main_call1_v12
  rw [and_reduce1 _ _ rfl, val_main_call1_v11_apply, val_main_call1_v7_apply, val_main_call1_v10_apply,
    val_main_call1_v6_apply, val_main_call1_c_2_apply, val_main_call1_v9_apply, val_main_call1_v8_apply,
    val_main_call1_c_1_apply, c1v5_at x1 h]
  exact inb _ (h i)

/-- The first row-wise gather reads the softmax at the target class. -/
private theorem c1v13_at (i : Fin 16384) (u : Fin 1) :
    val_main_call1_v13 (F := Ideal) x0 x1 (ix2 i u)
      = val_main_v34 (F := Ideal) x0 (ix2 i ⟨(x1 (ix1 i)).toNat, h i⟩) := by
  have e := c1v5_at x1 h i u (0 : Fin 1)
  have hlt : (val_main_call1_v5 (F := Ideal) x1 (ix3 i u (0 : Fin 1))).toNat < 1000 := by rw [e]; exact h i
  unfold val_main_call1_v13
  rw [Cert.LibGatherRows.gather_rows gather_S16384x1000_S16384x1x1_S16384x1_n_1_0_0_1_2_11 rfl rfl rfl rfl rfl rfl
    (val_main_v34 (F := Ideal) x0) (val_main_call1_v5 (F := Ideal) x1) i u (by decide) hlt]
  exact congrArg (fun r => val_main_v34 (F := Ideal) x0 (ix2 i r)) (Fin.ext (congrArg BitVec.toNat e))

/-- The softmax at the target class, as the reference takes it. -/
private theorem v36_at (i : Fin 16384) (u : Fin 1) :
    val_main_v36 (F := Ideal) x0 x1 (ix2 i u)
      = prob (fun j => x0 (ix2 i j)) ⟨(x1 (ix1 i)).toNat, h i⟩ := by
  rw [val_main_v36_apply, c1v12_at x1 h, c1v13_at x0 x1 h, v34_at]
  exact select_one _ _

end Target

section Weights

variable (x0 : FVec Ideal S16384x1000 .f32) (x1 : IVec S16384 32) (x2 : FVec Ideal S1000 .f32)
  (h : ∀ i : Fin 16384, (x1 (ix1 i)).toNat < 1000)

include h

/-- The clamped count of a row's target class. -/
private theorem v8_at (i : Fin 16384) :
    val_main_v8 (F := Ideal) x1 x2 (ix1 i)
      = clampCount (fun j => x2 (ix1 j)) ⟨(x1 (ix1 i)).toNat, h i⟩ := by
  rw [val_main_v8_apply, v6_at x1 x2 h, val_main_v7_apply, val_main_cst_apply]
  rfl

private theorem v12_at (i : Fin 16384) (j : Fin 1000) :
    val_main_v12 (F := Ideal) x1 x2 (ix2 i j)
      = clampCount (fun j => x2 (ix1 j)) ⟨(x1 (ix1 i)).toNat, h i⟩ := by
  rw [val_main_v12_apply, val_main_v10_apply]
  exact (congrArg (val_main_v8 (F := Ideal) x1 x2) (by idx1)).trans (v8_at x1 x2 h i)

private theorem v17_at (i : Fin 16384) (j : Fin 1000) :
    val_main_v17 (F := Ideal) x1 x2 (ix2 i j)
      = clampCount (fun j => x2 (ix1 j)) ⟨(x1 (ix1 i)).toNat, h i⟩ := by
  rw [val_main_v17_apply, val_main_v15_apply]
  exact (congrArg (val_main_v8 (F := Ideal) x1 x2) (by idx1)).trans (v8_at x1 x2 h i)

omit h in
private theorem v11_at (i : Fin 16384) (j : Fin 1000) : val_main_v11 (F := Ideal) x2 (ix2 i j) = x2 (ix1 j) := by
  rw [val_main_v11_apply, val_main_v9_apply]
  exact congrArg x2 (by idx1)

omit h in
private theorem v16_at (i : Fin 16384) (j : Fin 1000) : val_main_v16 (F := Ideal) x2 (ix2 i j) = x2 (ix1 j) := by
  rw [val_main_v16_apply, val_main_v14_apply]
  exact congrArg x2 (by idx1)

/-- The reference's mitigation factor at row i and class j. -/
private theorem v23_at (i : Fin 16384) (j : Fin 1000) :
    val_main_v23 (F := Ideal) x1 x2 (ix2 i j)
      = mitig (fun j => x2 (ix1 j)) ⟨(x1 (ix1 i)).toNat, h i⟩ j := by
  rw [val_main_v23_apply, val_main_v18_apply, val_main_v22_apply, val_main_v20_apply, val_main_v13_apply,
    v11_at, v12_at x1 x2 h, v16_at, v17_at x1 x2 h, val_main_v19_apply, val_main_cst_1_apply, val_main_v21_apply,
    val_main_cst_2_apply, val_main_call0_v1_apply, val_main_call0_v0_apply, val_main_cst_3_apply]
  rfl

private theorem v37_at (i : Fin 16384) (j : Fin 1000) :
    val_main_v37 (F := Ideal) x0 x1 (ix2 i j)
      = prob (fun j => x0 (ix2 i j)) ⟨(x1 (ix1 i)).toNat, h i⟩ := by
  rw [val_main_v37_apply]
  have e : idx_main_v37 (ix2 i j) = ix2 i (0 : Fin 1) := by idx2
  rw [e, v36_at x0 x1 h]

private theorem v41_at (i : Fin 16384) (j : Fin 1000) :
    val_main_v41 (F := Ideal) x0 x1 (ix2 i j)
      = prob (fun j => x0 (ix2 i j)) ⟨(x1 (ix1 i)).toNat, h i⟩ + epsV := by
  rw [val_main_v41_apply]
  have e : idx_main_v41 (ix2 i j) = ix2 i (0 : Fin 1) := by idx2
  rw [e, val_main_v40_apply, v36_at x0 x1 h, val_main_v39_apply, val_main_cst_7_apply]
  rfl

/-- The reference's compensation factor at row i and class j. -/
private theorem v45_at (i : Fin 16384) (j : Fin 1000) :
    val_main_v45 (F := Ideal) x0 x1 (ix2 i j)
      = compPow (fun j => x0 (ix2 i j)) ⟨(x1 (ix1 i)).toNat, h i⟩ j := by
  rw [val_main_v45_apply, val_main_v38_apply, val_main_v44_apply, val_main_v42_apply, v34_at, v37_at x0 x1 h,
    v41_at x0 x1 h, val_main_v43_apply, val_main_cst_8_apply, val_main_call2_v1_apply, val_main_call2_v0_apply,
    val_main_cst_9_apply]
  rfl

open StableHlo.Predicate in
/-- The one-hot mask is set exactly at the target class. -/
private theorem v46_iff (i : Fin 16384) (j : Fin 1000) :
    val_main_v46 (F := Ideal) x1 (ix2 i j) = 1#1 ↔ j = ⟨(x1 (ix1 i)).toNat, h i⟩ := by
  rw [val_main_v46_apply, val_main_call3_v2_apply, val_main_call3_v0_apply, val_main_call3_v3_apply,
    val_main_call3_v1_apply, cmpi_eq_iff]
  have e : idx_main_call3_v0 (idx_main_call3_v2 (ix2 i j)) = ix1 i := by idx1
  rw [e]
  show x1 (ix1 i) = BitVec.ofNat 32 j.val ↔ _
  constructor
  · intro hw
    apply Fin.ext
    show j.val = (x1 (ix1 i)).toNat
    rw [hw, BitVec.toNat_ofNat]
    have := j.isLt
    omega
  · intro hj
    rw [hj]
    show x1 (ix1 i) = BitVec.ofNat 32 (x1 (ix1 i)).toNat
    apply BitVec.eq_of_toNat_eq
    rw [BitVec.toNat_ofNat]
    exact (Nat.mod_eq_of_lt (x1 (ix1 i)).isLt).symm

/-- The reference's weight at row i and class j. -/
private theorem v48_at (i : Fin 16384) (j : Fin 1000) :
    val_main_v48 (F := Ideal) x0 x1 x2 (ix2 i j)
      = weight (fun j => x2 (ix1 j)) ⟨(x1 (ix1 i)).toNat, h i⟩
          (compPow (fun j => x0 (ix2 i j)) ⟨(x1 (ix1 i)).toNat, h i⟩) j := by
  rw [val_main_v48_apply, val_main_v47_apply, v23_at x1 x2 h, v45_at x0 x1 h, val_main_call4_v1_apply,
    val_main_call4_v0_apply, val_main_cst_10_apply]
  unfold weight
  by_cases hj : j = ⟨(x1 (ix1 i)).toNat, h i⟩
  · rw [if_pos hj, (v46_iff x1 h i j).2 hj]
    exact select_one _ _
  · rw [if_neg hj, eq_zero_of_ne_one (fun hc => hj ((v46_iff x1 h i j).1 hc))]
    exact select_zero _ _

/-- The reference's reweighted logits at row i and class j. -/
private theorem v52_at (i : Fin 16384) (j : Fin 1000) :
    val_main_v52 (F := Ideal) x0 x1 x2 (ix2 i j)
      = reweighted (fun j => x2 (ix1 j)) (fun j => x0 (ix2 i j)) ⟨(x1 (ix1 i)).toNat, h i⟩
          (compPow (fun j => x0 (ix2 i j)) ⟨(x1 (ix1 i)).toNat, h i⟩) j := by
  rw [val_main_v52_apply, val_main_v51_apply, val_main_v50_apply, v48_at x0 x1 x2 h, val_main_v49_apply,
    val_main_cst_11_apply]
  rfl

end Weights

section LogSoftmax

variable (x0 : FVec Ideal S16384x1000 .f32) (x1 : IVec S16384 32) (x2 : FVec Ideal S1000 .f32)

private theorem c5v2_at (i : Fin 16384) :
    val_main_call5_v2 (F := Ideal) x0 x1 x2 (ix1 i)
      = rowMax (fun j => val_main_v52 (F := Ideal) x0 x1 x2 (ix2 i j)) := by
  have e : val_main_call5_v0 (F := Ideal) x0 x1 x2 (ix1 i)
      = rowMax (fun j => val_main_v52 (F := Ideal) x0 x1 x2 (ix2 i j)) :=
    rowMax_reduce (val_main_v52 (F := Ideal) x0 x1 x2) _ rfl i
  rw [val_main_call5_v2_apply, e, val_main_call5_v1_apply, val_main_call5_cst_0_apply]
  exact max_negInf _

private theorem c5v4_at (i : Fin 16384) (j : Fin 1000) :
    val_main_call5_v4 (F := Ideal) x0 x1 x2 (ix2 i j)
      = rowMax (fun j => val_main_v52 (F := Ideal) x0 x1 x2 (ix2 i j)) := by
  rw [val_main_call5_v4_apply, val_main_call5_v3_apply]
  exact (congrArg (val_main_call5_v2 (F := Ideal) x0 x1 x2) (by idx1)).trans (c5v2_at x0 x1 x2 i)

private theorem c5v5_at (i : Fin 16384) (j : Fin 1000) :
    val_main_call5_v5 (F := Ideal) x0 x1 x2 (ix2 i j)
      = shifted (fun j => val_main_v52 (F := Ideal) x0 x1 x2 (ix2 i j)) j := by
  rw [val_main_call5_v5_apply, c5v4_at]
  rfl

private theorem c5v7_at (i : Fin 16384) :
    val_main_call5_v7 (F := Ideal) x0 x1 x2 (ix1 i)
      = den (fun j => val_main_v52 (F := Ideal) x0 x1 x2 (ix2 i j)) := by
  rw [val_main_call5_v7_apply, val_main_call5_cst_1_apply]
  show Ideal.ofBits .f32 0x00000000#32 + _ = _
  rw [Ideal.ofBits_zero_f32, zero_add]
  unfold den
  refine Finset.sum_congr rfl fun k _ => ?_
  have e : idx_main_call5_v7 (ix1 i) k = ix2 i k := by idx2
  rw [e, val_main_call5_v6_apply, c5v5_at]
  rfl

private theorem c5v10_at (i : Fin 16384) (j : Fin 1000) :
    val_main_call5_v10 (F := Ideal) x0 x1 x2 (ix2 i j)
      = Ideal.log (den (fun j => val_main_v52 (F := Ideal) x0 x1 x2 (ix2 i j))) := by
  rw [val_main_call5_v10_apply, val_main_call5_v9_apply, val_main_call5_v8_apply]
  have e : idx_main_call5_v8 (idx_main_call5_v10 (ix2 i j)) = ix1 i := by idx1
  rw [e, c5v7_at]
  rfl

/-- The reference's log-softmax of its reweighted logits at row i and class j. -/
private theorem v53_at (i : Fin 16384) (j : Fin 1000) :
    val_main_v53 (F := Ideal) x0 x1 x2 (ix2 i j)
      = logSoft (fun j => val_main_v52 (F := Ideal) x0 x1 x2 (ix2 i j)) j := by
  rw [val_main_v53_apply, c5v5_at, c5v10_at]
  rfl

end LogSoftmax

section Rows

variable (x0 : FVec Ideal S16384x1000 .f32) (x1 : IVec S16384 32) (x2 : FVec Ideal S1000 .f32)
  (h : ∀ i : Fin 16384, (x1 (ix1 i)).toNat < 1000)

include h

/-- The wrapped target words of a row-wise gather are the target words (second call). -/
private theorem c6v5_at (i : Fin 16384) (u v : Fin 1) :
    val_main_call6_v5 (F := Ideal) x1 (ix3 i u v) = x1 (ix1 i) := by
  rw [val_main_call6_v5_apply, val_main_call6_v4_apply, val_main_call6_v1_apply, val_main_call6_v3_apply,
    val_main_call6_v0_apply, val_main_call6_v2_apply, val_main_call6_c_apply, val_main_call6_c_0_apply,
    val_main_v54_apply]
  have e : idx_main_v54 (idx_main_call6_v5 (ix3 i u v)) = ix1 i := by
    funext a
    match a with
    | ⟨0, _⟩ => exact Fin.ext (by
        show ((i.val * 1 + u.val) * 1 + v.val) / 1 = i.val
        have hu := u.isLt; have hv := v.isLt; omega)
  rw [e]
  exact wrap_id _ (h i)

/-- The bounds check of the second row-wise gather passes. -/
private theorem c6v12_at (i : Fin 16384) (u : Fin 1) : val_main_call6_v12 (F := Ideal) x1 (ix2 i u) = 1#1 := by
  unfold val_main_call6_v12
  rw [and_reduce1 _ _ rfl, val_main_call6_v11_apply, val_main_call6_v7_apply, val_main_call6_v10_apply,
    val_main_call6_v6_apply, val_main_call6_c_2_apply, val_main_call6_v9_apply, val_main_call6_v8_apply,
    val_main_call6_c_1_apply, c6v5_at x1 h]
  exact inb _ (h i)

/-- The second row-wise gather reads the log-softmax at the target class. -/
private theorem c6v13_at (i : Fin 16384) (u : Fin 1) :
    val_main_call6_v13 (F := Ideal) x0 x1 x2 (ix2 i u)
      = val_main_v53 (F := Ideal) x0 x1 x2 (ix2 i ⟨(x1 (ix1 i)).toNat, h i⟩) := by
  have e := c6v5_at x1 h i u (0 : Fin 1)
  have hlt : (val_main_call6_v5 (F := Ideal) x1 (ix3 i u (0 : Fin 1))).toNat < 1000 := by rw [e]; exact h i
  unfold val_main_call6_v13
  rw [Cert.LibGatherRows.gather_rows gather_S16384x1000_S16384x1x1_S16384x1_n_1_0_0_1_2_11 rfl rfl rfl rfl rfl rfl
    (val_main_v53 (F := Ideal) x0 x1 x2) (val_main_call6_v5 (F := Ideal) x1) i u (by decide) hlt]
  exact congrArg (fun r => val_main_v53 (F := Ideal) x0 x1 x2 (ix2 i r)) (Fin.ext (congrArg BitVec.toNat e))

/-- The reference's per-row value before the negation: the log-softmax of the reweighted logits at the target. -/
private theorem v56_at (i : Fin 16384) :
    val_main_v56 (F := Ideal) x0 x1 x2 (ix1 i)
      = logSoft (reweighted (fun j => x2 (ix1 j)) (fun j => x0 (ix2 i j)) ⟨(x1 (ix1 i)).toNat, h i⟩
          (compPow (fun j => x0 (ix2 i j)) ⟨(x1 (ix1 i)).toNat, h i⟩)) ⟨(x1 (ix1 i)).toNat, h i⟩ := by
  rw [val_main_v56_apply]
  have e : idx_main_v56 (ix1 i) = ix2 i (0 : Fin 1) := by
    funext a
    match a with
    | ⟨0, _⟩ => exact Fin.ext (by show i.val / 1 = i.val; omega)
    | ⟨1, _⟩ => rfl
  rw [e, val_main_v55_apply, c6v12_at x1 h, c6v13_at x0 x1 x2 h, v53_at]
  rw [select_one]
  refine congrArg (fun y => logSoft y _) ?_
  funext j
  exact v52_at x0 x1 x2 h i j

end Rows

/-- The reference's per-row vector (its %57) is the batch's losses, when every target word is a class number. -/
theorem ref_rows (x0 : FVec Ideal S16384x1000 .f32) (x1 : IVec S16384 32) (x2 : FVec Ideal S1000 .f32)
    (h : ∀ i : Fin 16384, (x1 (ix1 i)).toNat < 1000) :
    val_main_v57 (F := Ideal) x0 x1 x2 = lossVec x0 x1 x2 h := by
  funext idx
  obtain ⟨i, rfl⟩ : ∃ i : Fin 16384, idx = ix1 i := ⟨idx 0, eq_ix1 idx⟩
  rw [val_main_v57_apply, v56_at x0 x1 x2 h]
  rfl

/-- The reference's result is the mean of the batch's losses. -/
theorem ref_result (x0 : FVec Ideal S16384x1000 .f32) (x1 : IVec S16384 32) (x2 : FVec Ideal S1000 .f32)
    (h : ∀ i : Fin 16384, (x1 (ix1 i)).toNat < 1000) :
    val_main_v59 (F := Ideal) x0 x1 x2 = fun _ => meanLoss (lossVec x0 x1 x2 h) := by
  funext idx
  rw [val_main_v59_apply, val_main_v58_apply, ref_rows x0 x1 x2 h, val_main_cst_12_apply, val_main_cst_13_apply]
  rfl

end Cert.Seesaw.Ref

end
-- ==== Proof.SpecLaws.lean ====
/-
  Laws of the row functions of Spec.lean.
-/
import proofs.«426645_j41120016892076_3_alg».proof.Proof.Spec

noncomputable section

namespace Cert.Seesaw

open Idealize.ShloMosaic

/-- The word 0xFF800000 is −∞. -/
theorem negInf_eq_bot : negInf = (⊥ : EReal) := by
  simp [negInf, Ideal.ofBits, Ideal.ieee]

namespace Laws

/-- A pattern whose exponent field is not all ones, and whose sign bit is clear, denotes a non-negative real. -/
theorem ieee_nonneg_real {w : Nat} (e m : Nat) (b : BitVec w) (h : (b.extractLsb' m e).toNat ≠ 2 ^ e - 1)
    (hs : (b.extractLsb' (e + m) 1 == 1#1) = false) :
    ∃ r : ℝ, 0 ≤ r ∧ Ideal.ieee e m b = (r : EReal) := by
  unfold Ideal.ieee
  simp only [hs, Bool.false_eq_true, if_false, if_neg h]
  split_ifs with h2
  · refine ⟨_, ?_, rfl⟩
    positivity
  · refine ⟨_, ?_, rfl⟩
    positivity

/-- ε is a non-negative real number. -/
theorem epsV_real : ∃ e : ℝ, 0 ≤ e ∧ epsV = (e : EReal) :=
  ieee_nonneg_real 8 23 (0x3C23D70A#32) (by decide) (by decide)

/-- q is a real number. -/
theorem qExp_real : ∃ q : ℝ, qExp = (q : EReal) := by
  obtain ⟨q, -, h⟩ := ieee_nonneg_real 8 23 (0x3FC00000#32) (by decide) (by decide)
  exact ⟨q, h⟩

/-- The coercion of the reals commutes with a finite sum. -/
theorem coe_finset_sum {ι : Type} (s : Finset ι) (g : ι → ℝ) :
    (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- The fold of max from ⊥ over a finite set of reals is ⊥ or a real; a real when the set is inhabited. -/
theorem fold_max_real (f : Fin 1000 → ℝ) (s : Finset (Fin 1000)) :
    (s = ∅ ∧ s.fold max (⊥ : EReal) (fun j => (f j : EReal)) = ⊥) ∨
      ∃ M : ℝ, s.fold max (⊥ : EReal) (fun j => (f j : EReal)) = (M : EReal) := by
  classical
  induction s using Finset.induction_on with
  | empty => exact Or.inl ⟨rfl, Finset.fold_empty⟩
  | insert a s ha ih =>
    right
    rw [Finset.fold_insert ha]
    rcases ih with ⟨-, h⟩ | ⟨M, h⟩
    · exact ⟨f a, by rw [h]; exact max_bot_right _⟩
    · exact ⟨max (f a) M, by rw [h]; exact (EReal.coe_strictMono.monotone.map_max).symm⟩

/-- The maximum of a row of reals is a real. -/
theorem rowMax_real (f : Fin 1000 → ℝ) : ∃ M : ℝ, rowMax (fun j => (f j : EReal)) = (M : EReal) := by
  unfold rowMax
  rw [negInf_eq_bot]
  rcases fold_max_real f Finset.univ with ⟨h, -⟩ | h
  · exact absurd h (Finset.univ_nonempty.ne_empty)
  · exact h

/-- The heart, on the reals: with a the shifted logit, S the softmax denominator, w the (positive) divisor. -/
theorem core (a S w q : ℝ) (hS : 0 < S) (hw : 0 < w) :
    Ideal.exp ((q : EReal) * (((a : EReal) - Ideal.log (S : EReal)) - Ideal.log (w : EReal)))
      = Ideal.pow (Ideal.div (Ideal.div (Ideal.exp (a : EReal)) (S : EReal)) (w : EReal)) (q : EReal) := by
  rw [Ideal.log_coe, if_neg (not_le.mpr hS), Ideal.log_coe, if_neg (not_le.mpr hw), Ideal.exp_coe,
    Ideal.div_coe hS.ne', Ideal.div_coe hw.ne', ← EReal.coe_sub, ← EReal.coe_sub, ← EReal.coe_mul,
    ← EReal.coe_mul, ← EReal.coe_mul, Ideal.exp_coe, Ideal.pow_coe_coe]
  congr 1
  have hpos : 0 < Real.exp a * (1 / S) * (1 / w) := by positivity
  show Real.exp _ = (Real.exp a * (1 / S) * (1 / w)) ^ q
  rw [Real.rpow_def_of_pos hpos, Real.log_mul (by positivity) (by positivity),
    Real.log_mul (by positivity) (by positivity), Real.log_exp, one_div, one_div, Real.log_inv, Real.log_inv]
  ring_nf

section Row

variable (f : Fin 1000 → ℝ) (M : ℝ) (hM : rowMax (fun j => (f j : EReal)) = (M : EReal))

include hM in
/-- A row of reals shifted by its (real) maximum. -/
theorem shifted_coe (k : Fin 1000) :
    shifted (fun j => (f j : EReal)) k = ((f k - M : ℝ) : EReal) := by
  unfold shifted
  rw [hM, EReal.coe_sub]

/-- The softmax denominator of a row of reals is positive. -/
theorem sumExp_pos : 0 < ∑ k : Fin 1000, Real.exp (f k - M) :=
  Finset.sum_pos (fun k _ => Real.exp_pos _) Finset.univ_nonempty

include hM in
/-- The softmax denominator of a row of reals. -/
theorem den_coe : den (fun j => (f j : EReal)) = ((∑ k : Fin 1000, Real.exp (f k - M) : ℝ) : EReal) := by
  unfold den
  rw [← coe_finset_sum]
  exact Finset.sum_congr rfl fun k _ => by rw [shifted_coe f M hM, Ideal.exp_coe]

include hM in
/-- The softmax of a row of reals. -/
theorem prob_coe (k : Fin 1000) : prob (fun j => (f j : EReal)) k
    = Ideal.div (Ideal.exp ((f k - M : ℝ) : EReal)) ((∑ k : Fin 1000, Real.exp (f k - M) : ℝ) : EReal) := by
  unfold prob
  rw [shifted_coe f M hM, den_coe f M hM]

include hM in
/-- The divisor of the compensation factor is a positive real. -/
theorem divisor_coe (e : ℝ) (he0 : 0 ≤ e) (t : Fin 1000) :
    ∃ w : ℝ, 0 < w ∧ prob (fun j => (f j : EReal)) t + (e : EReal) = (w : EReal) := by
  refine ⟨Real.exp (f t - M) * (1 / ∑ k : Fin 1000, Real.exp (f k - M)) + e,
    add_pos_of_pos_of_nonneg (mul_pos (Real.exp_pos _) (one_div_pos.mpr (sumExp_pos f M))) he0, ?_⟩
  rw [prob_coe f M hM, Ideal.exp_coe, Ideal.div_coe (sumExp_pos f M).ne', ← EReal.coe_mul, ← EReal.coe_add]

include hM in
/-- The two spellings of the compensation factor's value, for real ε ≥ 0 and real q. -/
theorem mid_eq (e q : ℝ) (he0 : 0 ≤ e) (t j : Fin 1000) :
    Ideal.exp ((q : EReal) * (logSoft (fun j => (f j : EReal)) j
        - Ideal.log (prob (fun j => (f j : EReal)) t + (e : EReal))))
      = Ideal.pow (Ideal.div (prob (fun j => (f j : EReal)) j) (prob (fun j => (f j : EReal)) t + (e : EReal)))
          (q : EReal) := by
  obtain ⟨w, hw, hwe⟩ := divisor_coe f M hM e he0 t
  rw [hwe]
  unfold logSoft
  rw [shifted_coe f M hM, den_coe f M hM, prob_coe f M hM]
  exact core _ _ _ _ (sumExp_pos f M) hw

end Row

/-- A selection between equal first branches. -/
theorem select_congr {α : Type} (c : BitVec 1) (d : α) {a b : α} (h : a = b) :
    Scalar.select c a d = Scalar.select c b d := by
  rw [h]

end Laws

/-- For finite logits the two spellings of the compensation factor are one number. -/
theorem compExp_eq_compPow (x : Fin 1000 → EReal) (hx : ∀ j, ∃ v : ℝ, x j = (v : EReal)) (t j : Fin 1000) :
    compExp x t j = compPow x t j := by
  choose f hf using hx
  obtain rfl : x = fun j => (f j : EReal) := funext hf
  obtain ⟨M, hM⟩ := Laws.rowMax_real f
  obtain ⟨e, he0, he⟩ := Laws.epsV_real
  obtain ⟨q, hq⟩ := Laws.qExp_real
  have h := Laws.mid_eq f M hM e q he0 t j
  rw [← he, ← hq] at h
  unfold compExp compPow
  exact Laws.select_congr _ _ h

/-- So the two spellings of a row's loss agree on finite logits. -/
theorem rowLossLog_eq (cc x : Fin 1000 → EReal) (hx : ∀ j, ∃ v : ℝ, x j = (v : EReal)) (t : Fin 1000) :
    rowLossLog cc x t = rowLoss cc x t := by
  unfold rowLossLog rowLoss
  rw [show compExp x t = compPow x t from funext (compExp_eq_compPow x hx t)]

end Cert.Seesaw

end
-- ==== Proof.LibColumn.lean ====
/-
  Two layout operations on a column, read at an index. A column is an array of shape `[a, 1]`.

  * `broadcastTo_a1_ab_apply`: a column broadcast along `b` lanes reads, at `(p, c)`, the column's entry of row `p`
    (a keepdims reduction result, or a per-row scale, laid against a matrix).
  * `shapeCast_a_a1_apply`: a vector `[a]` cast to a column reads, at `(p, 0)`, the vector's entry `p`
    (`v[:, None]`, or a reshape `(a,) → (a, 1)`).

  Both are stated over the literal-extent index constructors `ix1`, `ix2`, for any element type.
-/
import Idealize.ShloMosaic.Lib.ValueIdx
import Idealize.ShloMosaic.Lib.Pipeline.Value

noncomputable section

namespace Cert.Lib

open Idealize.ShloMosaic Idealize.ShloMosaic.ValueIdx

/-- An `[a, 1]` column broadcast along `b` lanes reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib

end
-- ==== Proof.KerBlock.lean ====
/-
  The kernel's block: what one grid point leaves in its output block, entry by entry — every lane of row `r` holds the
  loss of that row, the compensation written in log space.
-/
import proofs.«426645_j41120016892076_3_alg».proof.Proof.Spec
import proofs.«426645_j41120016892076_3_alg».proof.Proof.LibColumn
import proofs.«426645_j41120016892076_3_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value

noncomputable section

namespace Cert.Seesaw.Ker

open Cert.KernelIdeal Cert.KernelIdeal.Gen Idealize.ShloMosaic Idealize.ShloMosaic.ValueIdx

/-! ## Rows and columns of a block -/

/-- The index a reduction along the lanes inserts over row `p`: `(p, k)`. -/
theorem lift_row (p : Fin 512) (k : Fin 1000) :
    reduces_S512x1000_S512.lift (ix1 p) k = ix2 p k := by
  funext a
  refine Fin.ext ?_
  match a with
  | ⟨0, _⟩ => rfl
  | ⟨1, _⟩ => rfl

/-- A row's maximum from −∞, as a column. -/
theorem colMax_apply (v : FVec Ideal S512x1000 .f32) (p : Fin 512) (u : Fin 1) :
    shapeCast S512x1 (multiReduction (F := Ideal) .maximumf [1] S512 v 0xFF800000#32 reduces_S512x1000_S512 (.inl rfl) rfl)
        shapeCasts_S512_S512x1 (ix2 p u)
      = rowMax fun k => v (ix2 p k) := by
  refine (Cert.Lib.shapeCast_a_a1_apply _ _ p u).trans ?_
  refine (Ideal.multiReduction_maximumf_single v _ reduces_S512x1000_S512 _ _ (ix1 p)).trans ?_
  unfold rowMax
  refine congrArg (fun f => (Finset.univ : Finset (Fin 1000)).fold max negInf f) ?_
  funext k
  exact congrArg v (lift_row p k)

/-- A row's sum, as a column. -/
theorem colSum_apply (v : FVec Ideal S512x1000 .f32) (p : Fin 512) (u : Fin 1) :
    shapeCast S512x1 (multiReduction (F := Ideal) .add [1] S512 v 0x00000000#32 reduces_S512x1000_S512 (.inl rfl) rfl)
        shapeCasts_S512_S512x1 (ix2 p u)
      = ∑ k : Fin 1000, v (ix2 p k) := by
  refine (Cert.Lib.shapeCast_a_a1_apply _ _ p u).trans ?_
  refine (Ideal.multiReduction_add_single v _ reduces_S512x1000_S512 _ _ (ix1 p)).trans ?_
  exact Finset.sum_congr rfl fun k _ => congrArg v (lift_row p k)

/-- The same two, with the list of reduced axes a variable (equal to the lane axis). -/
theorem colMax_apply' (ax : List (Fin S512x1000.rank)) (hax : ax = [1]) (h : S512x1000.Reduces ax S512)
    (v : FVec Ideal S512x1000 .f32) (p : Fin 512) (u : Fin 1) :
    shapeCast S512x1 (multiReduction (F := Ideal) .maximumf ax S512 v 0xFF800000#32 h (.inl rfl) rfl)
        shapeCasts_S512_S512x1 (ix2 p u)
      = rowMax fun k => v (ix2 p k) := by
  subst hax
  exact colMax_apply v p u

theorem colSum_apply' (ax : List (Fin S512x1000.rank)) (hax : ax = [1]) (h : S512x1000.Reduces ax S512)
    (v : FVec Ideal S512x1000 .f32) (p : Fin 512) (u : Fin 1) :
    shapeCast S512x1 (multiReduction (F := Ideal) .add ax S512 v 0x00000000#32 h (.inl rfl) rfl)
        shapeCasts_S512_S512x1 (ix2 p u)
      = ∑ k : Fin 1000, v (ix2 p k) := by
  subst hax
  exact colSum_apply v p u

/-! ## The one-hot mask -/

/-- Equality of words, as a bit. -/
theorem cmpi_eq_ite {w : Nat} (a b : BitVec w) : IntOp.cmpi .eq a b = if a = b then 1#1 else 0#1 := by
  unfold IntOp.cmpi
  by_cases h : a = b
  · simp [h]
  · have hb : (a == b) = false := beq_eq_false_iff_ne.mpr h
    simp only [hb, if_neg h]
    rfl

/-- A lane number below 1000 is a given word exactly when it is the word's value. -/
theorem ofNat_eq_iff (j : Fin 1000) (w : BitVec 32) (hw : w.toNat < 1000) :
    BitVec.ofNat 32 j.val = w ↔ j = (⟨w.toNat, hw⟩ : Fin 1000) := by
  constructor
  · intro h
    refine Fin.ext ?_
    have := congrArg BitVec.toNat h
    rw [BitVec.toNat_ofNat] at this
    have hj := j.isLt
    show j.val = w.toNat
    omega
  · intro h
    refine BitVec.eq_of_toNat_eq ?_
    rw [BitVec.toNat_ofNat, h]
    show w.toNat % 2 ^ 32 = w.toNat
    omega

/-- The mask at `(p, j)`: lane `j` is the target class of row `p`. -/
theorem mask_apply (x1 : Vec Ideal S512x1 .i32) (p : Fin 512) (j : Fin 1000)
    (ht : (x1 (ix2 p (0 : Fin 1)) : BitVec 32).toNat < 1000) :
    k0_pay2 (F := Ideal) x1 (ix2 p j)
      = if j = (⟨(x1 (ix2 p (0 : Fin 1)) : BitVec 32).toNat, ht⟩ : Fin 1000) then 1#1 else 0#1 := by
  unfold k0_pay2
  show IntOp.cmpi .eq (iota .tc S512x1000 32 [1] iota_S512x1000_d1_w32 (ix2 p j))
      (broadcastTo S512x1000 (shapeCast S512x1 x1 shapeCasts_S512x1_S512x1) broadcasts_S512x1_S512x1000 (ix2 p j)) = _
  rw [iota_single_apply, Cert.Lib.broadcastTo_a1_ab_apply, shapeCast_self, cmpi_eq_ite]
  by_cases h : j = (⟨(x1 (ix2 p (0 : Fin 1)) : BitVec 32).toNat, ht⟩ : Fin 1000)
  · rw [if_pos h, if_pos ((ofNat_eq_iff j _ ht).mpr h)]
  · rw [if_neg h, if_neg (fun e => h ((ofNat_eq_iff j _ ht).mp e))]

/-! ## The product with the one-hot rows -/

theorem lhs_axis0 (i : S512x1000.Idx) (q : dot_S512x1000_S1000x1000_S512x1000_1_0_0_1_n_n.contr.Idx) :
    (dot_S512x1000_S1000x1000_S512x1000_1_0_0_1_n_n.lhsIdx i q 0).val = (i 0).val := by
  unfold DotDims.lhsIdx
  rw [dif_neg (show ¬(0 : Fin S512x1000.rank) ∈ dot_S512x1000_S1000x1000_S512x1000_1_0_0_1_n_n.lhsBatch by decide),
    dif_pos (show (0 : Fin S512x1000.rank) ∈ dot_S512x1000_S1000x1000_S512x1000_1_0_0_1_n_n.lhsNonContracting by decide)]
  rfl

theorem lhs_axis1 (i : S512x1000.Idx) (q : dot_S512x1000_S1000x1000_S512x1000_1_0_0_1_n_n.contr.Idx) :
    (dot_S512x1000_S1000x1000_S512x1000_1_0_0_1_n_n.lhsIdx i q 1).val = (q ⟨0, by decide⟩).val :=
  dot_S512x1000_S1000x1000_S512x1000_1_0_0_1_n_n.lhsIdx_val_of_single rfl i q

theorem rhs_axis0 (i : S512x1000.Idx) (q : dot_S512x1000_S1000x1000_S512x1000_1_0_0_1_n_n.contr.Idx) :
    (dot_S512x1000_S1000x1000_S512x1000_1_0_0_1_n_n.rhsIdx i q 0).val = (q ⟨0, by decide⟩).val :=
  dot_S512x1000_S1000x1000_S512x1000_1_0_0_1_n_n.rhsIdx_val_of_single rfl i q

theorem rhs_axis1 (i : S512x1000.Idx) (q : dot_S512x1000_S1000x1000_S512x1000_1_0_0_1_n_n.contr.Idx) :
    (dot_S512x1000_S1000x1000_S512x1000_1_0_0_1_n_n.rhsIdx i q 1).val = (i 1).val := by
  unfold DotDims.rhsIdx
  rw [dif_neg (show ¬(1 : Fin S1000x1000.rank) ∈ dot_S512x1000_S1000x1000_S512x1000_1_0_0_1_n_n.rhsBatch by decide),
    dif_pos (show (1 : Fin S1000x1000.rank) ∈ dot_S512x1000_S1000x1000_S512x1000_1_0_0_1_n_n.rhsNonContracting by decide)]
  rfl

/-- The product into the zero block at `(p, j)`: the sum over the contracted lane. -/
theorem matmul_row_apply (a : FVec Ideal S512x1000 .f32) (b : FVec Ideal S1000x1000 .f32) (p : Fin 512) (j : Fin 1000) :
    matmul (F := Ideal) dot_S512x1000_S1000x1000_S512x1000_1_0_0_1_n_n (some .fp32) a b
        (constant (F := Ideal) S512x1000 .f32 0x00000000#32) (ix2 p j)
      = ∑ k : Fin 1000, a (ix2 p k) * b (ix2 k j) := by
  simp only [matmul]
  rw [Ideal.matmul_constant_zero_apply,
    ← Equiv.sum_comp (contrEquiv1 dot_S512x1000_S1000x1000_S512x1000_1_0_0_1_n_n 1000 rfl rfl).symm]
  refine Finset.sum_congr rfl fun k _ => ?_
  have hk := contrEquiv1_symm_val dot_S512x1000_S1000x1000_S512x1000_1_0_0_1_n_n 1000 rfl rfl k
  have el : dot_S512x1000_S1000x1000_S512x1000_1_0_0_1_n_n.lhsIdx (ix2 p j)
      ((contrEquiv1 dot_S512x1000_S1000x1000_S512x1000_1_0_0_1_n_n 1000 rfl rfl).symm k) = ix2 p k :=
    funext fun c => Fin.ext (by
      match c with
      | ⟨0, _⟩ => exact lhs_axis0 _ _
      | ⟨1, _⟩ => exact (lhs_axis1 _ _).trans hk)
  have er : dot_S512x1000_S1000x1000_S512x1000_1_0_0_1_n_n.rhsIdx (ix2 p j)
      ((contrEquiv1 dot_S512x1000_S1000x1000_S512x1000_1_0_0_1_n_n 1000 rfl rfl).symm k) = ix2 k j :=
    funext fun c => Fin.ext (by
      match c with
      | ⟨0, _⟩ => exact (rhs_axis0 _ _).trans hk
      | ⟨1, _⟩ => exact rhs_axis1 _ _)
  rw [el, er]

/-- The one-hot bit as a number. -/
theorem onehot_value (c : Prop) [Decidable c] :
    (FloatOps.sitofp (F := Ideal) .f32 ((if c then 1#1 else 0#1 : BitVec 1).setWidth 32) : EReal) = if c then 1 else 0 := by
  by_cases h : c
  · simp only [if_pos h]
    show (((BitVec.setWidth 32 1#1).toInt : ℝ) : EReal) = 1
    have e : (BitVec.setWidth 32 1#1).toInt = 1 := by decide
    rw [e, Int.cast_one, EReal.coe_one]
  · simp only [if_neg h]
    show (((BitVec.setWidth 32 0#1).toInt : ℝ) : EReal) = 0
    have e : (BitVec.setWidth 32 0#1).toInt = 0 := by decide
    rw [e, Int.cast_zero, EReal.coe_zero]

/-- A sum against a one-hot row picks one term. -/
theorem sum_onehot_mul (t : Fin 1000) (g : Fin 1000 → EReal) :
    ∑ k : Fin 1000, (if k = t then (1 : EReal) else 0) * g k = g t := by
  rw [Finset.sum_eq_single t]
  · rw [if_pos rfl, one_mul]
  · intro k _ hk
    rw [if_neg hk, zero_mul]
  · intro h
    exact absurd (Finset.mem_univ t) h

/-- A sum masked by a one-hot row picks one term. -/
theorem sum_onehot_select (t : Fin 1000) (g : Fin 1000 → EReal) :
    ∑ k : Fin 1000, Scalar.select (if k = t then 1#1 else 0#1) (g k) zeroV = g t := by
  rw [Finset.sum_eq_single t]
  · rw [if_pos rfl, select_one]
  · intro k _ hk
    rw [if_neg hk, select_zero]
    exact Ideal.ofBits_zero_f32
  · intro h
    exact absurd (Finset.mem_univ t) h

/-! ## The payloads at an entry -/

theorem exp_apply {s : Shape} (a : FVec Ideal s .f32) (i : s.Idx) : exp a i = Ideal.exp (a i) := rfl
theorem log_apply {s : Shape} (a : FVec Ideal s .f32) (i : s.Idx) : log a i = Ideal.log (a i) := rfl

/-- The weights at `(p, j)`. -/
theorem weights_apply (x0 : Vec Ideal S512x1000 .f32) (x1 : Vec Ideal S512x1 .i32) (x2 : Vec Ideal S1000x1000 .f32)
    (cc : Fin 1000 → EReal) (hx2 : ∀ a b : Fin 1000, x2 (ix2 a b) = mitig cc a b)
    (p : Fin 512) (j : Fin 1000) (ht : (x1 (ix2 p (0 : Fin 1)) : BitVec 32).toNat < 1000) :
    k0_pay3 (F := Ideal) x0 x1 x2 (ix2 p j)
      = weight cc ⟨(x1 (ix2 p (0 : Fin 1)) : BitVec 32).toNat, ht⟩
          (compExp (fun k => x0 (ix2 p k)) ⟨(x1 (ix2 p (0 : Fin 1)) : BitVec 32).toNat, ht⟩) j := by
  simp only [k0_pay3, select_apply, mulf_apply, addf_apply, subf_apply, divf_apply, cmpf_apply, broadcast_apply,
    extui_apply, sitofp_apply, exp_apply, log_apply, shapeCast_self, Cert.Lib.broadcastTo_a1_ab_apply, colMax_apply',
    colSum_apply', matmul_row_apply, mask_apply x1 p _ ht, onehot_value, sum_onehot_mul, sum_onehot_select, hx2,
    Ideal.ofBits_def, Ideal.cmpf_def, weight, compExp, logSoft, prob, den, shifted]
  by_cases h : j = (⟨(x1 (ix2 p (0 : Fin 1)) : BitVec 32).toNat, ht⟩ : Fin 1000)
  · simp only [if_pos h, select_one]
  · simp only [if_neg h, select_zero]

/-- The block at `(p, l)`, from the logits, the mask and the weights: minus the log-softmax of the reweighted logits at
    the lane the mask marks. -/
theorem loss_apply (v0 : Vec Ideal S512x1000 .f32) (v5 : IVec S512x1000 1) (v43 : FVec Ideal S512x1000 .f32)
    (p : Fin 512) (l : Fin 128) (t : Fin 1000)
    (hm : ∀ j : Fin 1000, v5 (ix2 p j) = if j = t then 1#1 else 0#1) :
    k0_pay1 (F := Ideal) v0 v5 v43 (ix2 p l)
      = -(logSoft (fun j => v0 (ix2 p j) + Ideal.log (v43 (ix2 p j) + epsV)) t) := by
  simp only [k0_pay1, select_apply, addf_apply, subf_apply, broadcast_apply, exp_apply, log_apply, shapeCast_self,
    Cert.Lib.broadcastTo_a1_ab_apply, colMax_apply', colSum_apply', hm, Ideal.ofBits_def, sum_onehot_select,
    logSoft, den, shifted]
  rw [Ideal.ofBits_zero_f32]
  exact zero_sub _

/-- The output block at `(r, l)`, from the logits block `x0`, the column of target words `x1` and the mitigation table
    `x2` (row `a` of which is the mitigation for target class `a`). -/
theorem block_row (x0 : Vec Ideal S512x1000 .f32) (x1 : Vec Ideal S512x1 .i32) (x2 : Vec Ideal S1000x1000 .f32)
    (cc : Fin 1000 → EReal) (hx2 : ∀ a b : Fin 1000, x2 (ix2 a b) = mitig cc a b)
    (r : Fin 512) (l : Fin 128) (ht : (x1 (ix2 r (0 : Fin 1)) : BitVec 32).toNat < 1000) :
    out0_3 (F := Ideal) x0 x1 x2 (ix2 r l)
      = rowLossLog cc (fun j => x0 (ix2 r j)) ⟨(x1 (ix2 r (0 : Fin 1)) : BitVec 32).toNat, ht⟩ := by
  have hz : (![0, 0] : Fin 2 → Nat) = fun _ => 0 := funext fun a => by fin_cases a <;> rfl
  unfold out0_3
  rw [View.canon_unit_zero hz]
  simp only [View.ld_unit_zero (S := S512x1000) hz, View.ld_unit_zero (S := S512x1) hz,
    View.ld_unit_zero (S := S1000x1000) hz]
  rw [loss_apply x0 (k0_pay2 x1) (k0_pay3 x0 x1 x2) r l ⟨(x1 (ix2 r (0 : Fin 1)) : BitVec 32).toNat, ht⟩
    (fun j => mask_apply x1 r j ht)]
  unfold rowLossLog
  refine congrArg (fun f => -(logSoft f (⟨(x1 (ix2 r (0 : Fin 1)) : BitVec 32).toNat, ht⟩ : Fin 1000))) (funext fun j => ?_)
  unfold reweighted
  rw [weights_apply x0 x1 x2 cc hx2 r j ht]

end Cert.Seesaw.Ker

end
-- ==== Proof.KerHost.lean ====
/-
  What the kernel's host lines leave for the launch: the mitigation table, entry by entry, and the column of target words.
-/
import proofs.«426645_j41120016892076_3_alg».proof.Proof.Spec
import proofs.«426645_j41120016892076_3_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.Seesaw.KerHost

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The table -/

/-- A scalar broadcast to any shape reads the scalar everywhere. -/
theorem scalar_bcast_apply {α : Type} {t : Shape} (h : S_.BroadcastsInDim t (![] : Fin 0 → Fin t.rank)) (x : S_.Idx → α)
    (j : t.Idx) : broadcastInDim t ![] h x j = x ix0 :=
  broadcastInDim_apply _ h x j ix0 (fun a => a.elim0)

/-- A vector laid along the rows of the square: entry `(a, b)` is the vector's entry `b`. -/
theorem along_rows_apply {α : Type} (x : S1000.Idx → α) (a b : Fin 1000) :
    broadcastInDim S1000x1000 ![0, 1] bcast_S1x1000_S1000x1000_0_1
        (broadcastInDim S1x1000 ![1] bcast_S1000_S1x1000_1 x) (ix2 a b) = x (ix1 b) := by
  rw [broadcastInDim_apply _ bcast_S1x1000_S1000x1000_0_1 _ (ix2 a b) (ix2 (0 : Fin 1) b) (fun ax => match ax with
      | ⟨0, _⟩ => by show 0 = if (1 : Nat) = 1 then 0 else a.val; rw [if_pos rfl]
      | ⟨1, _⟩ => by show b.val = if (1000 : Nat) = 1 then 0 else b.val; rw [if_neg (by decide)]),
    broadcastInDim_apply _ bcast_S1000_S1x1000_1 x (ix2 (0 : Fin 1) b) (ix1 b) (fun ax => match ax with
      | ⟨0, _⟩ => by show b.val = if (1000 : Nat) = 1 then 0 else b.val; rw [if_neg (by decide)])]

/-- A vector laid along the columns of the square: entry `(a, b)` is the vector's entry `a`. -/
theorem along_cols_apply {α : Type} (x : S1000.Idx → α) (a b : Fin 1000) :
    broadcastInDim S1000x1000 ![0, 1] bcast_S1000x1_S1000x1000_0_1
        (broadcastInDim S1000x1 ![0] bcast_S1000_S1000x1_0 x) (ix2 a b) = x (ix1 a) := by
  rw [broadcastInDim_apply _ bcast_S1000x1_S1000x1000_0_1 _ (ix2 a b) (ix2 a (0 : Fin 1)) (fun ax => match ax with
      | ⟨0, _⟩ => by show a.val = if (1000 : Nat) = 1 then 0 else a.val; rw [if_neg (by decide)]
      | ⟨1, _⟩ => by show 0 = if (1 : Nat) = 1 then 0 else b.val; rw [if_pos rfl]),
    broadcastInDim_apply _ bcast_S1000_S1000x1_0 x (ix2 a (0 : Fin 1)) (ix1 a) (fun ax => match ax with
      | ⟨0, _⟩ => by show a.val = if (1000 : Nat) = 1 then 0 else a.val; rw [if_neg (by decide)])]

/-- The counts clamped below by one, as the host lines compute them. -/
def clamped (cc : FVec Ideal S1000 .f32) : FVec Ideal S1000 .f32 :=
  maximumf cc (broadcastInDim S1000 ![] bcast_S_S1000 (constant (F := Ideal) S_ .f32 0x3F800000#32))

theorem clamped_apply (cc : FVec Ideal S1000 .f32) (a : Fin 1000) :
    clamped cc (ix1 a) = max (cc (ix1 a)) oneV := by
  unfold clamped
  rw [maximumf_apply, scalar_bcast_apply, constant_apply]

/-- The table, as one term of the launched counts. -/
theorem table_term (c : Dev nD) :
    (V m c main_v16 : S1000x1000.Idx → EReal)
      = select
          (cmpf .olt
            (broadcastInDim S1000x1000 ![0, 1] bcast_S1x1000_S1000x1000_0_1
              (broadcastInDim S1x1000 ![1] bcast_S1000_S1x1000_1 (m ((c : Thread nD τ).loc main_arg2) : FVec Ideal S1000 .f32)))
            (broadcastInDim S1000x1000 ![0, 1] bcast_S1000x1_S1000x1000_0_1
              (broadcastInDim S1000x1 ![0] bcast_S1000_S1000x1_0 (clamped (m ((c : Thread nD τ).loc main_arg2))))))
          (Host.powf
            (addf
              (Host.divf
                (broadcastInDim S1000x1000 ![0, 1] bcast_S1x1000_S1000x1000_0_1
                  (broadcastInDim S1x1000 ![1] bcast_S1000_S1x1000_1 (m ((c : Thread nD τ).loc main_arg2) : FVec Ideal S1000 .f32)))
                (broadcastInDim S1000x1000 ![0, 1] bcast_S1000x1_S1000x1000_0_1
                  (broadcastInDim S1000x1 ![0] bcast_S1000_S1000x1_0 (clamped (m ((c : Thread nD τ).loc main_arg2))))))
              (broadcastInDim S1000x1000 ![] bcast_S_S1000x1000 (constant (F := Ideal) S_ .f32 0x3C23D70A#32)))
            (broadcastInDim S1000x1000 ![] bcast_S_S1000x1000 (constant (F := Ideal) S_ .f32 0x3F19999A#32)))
          (broadcastInDim S1000x1000 ![] bcast_S_S1000x1000 (constant (F := Ideal) S_ .f32 0x3F800000#32)) := by
  dsimp only [V, V0]
  simp only [hostOps0, hostOps0_1, hostOps0_2, hostOps0_3, hostOps0_4, List.flatten_cons, List.flatten_nil, List.append_nil, List.cons_append, List.nil_append]
  open Idealize.ShloMosaic.StableHlo in after_results_simp
  rfl

/-- The table the launch finds: entry `(a, b)` is the mitigation of class `b` for target class `a`, over the counts. -/
theorem table_entry (c : Dev nD) (a b : Fin 1000) :
    (V m c main_v16 : S1000x1000.Idx → EReal) (ix2 a b)
      = mitig (fun j => (m ((c : Thread nD τ).loc main_arg2) : S1000.Idx → EReal) (ix1 j)) a b := by
  rw [table_term m c, select_apply, cmpf_apply]
  simp only [Host.powf, Host.divf, addf_apply, Ideal.hostDivf_def, Ideal.hostPowf_def, Ideal.cmpf_def]
  rw [along_rows_apply, along_cols_apply, clamped_apply, scalar_bcast_apply, scalar_bcast_apply, scalar_bcast_apply]
  unfold mitig clampCount
  rfl

/-! ## The target words -/

/-- The clip of a word to [0, 999] does nothing to a word that is already a class number. -/
theorem clip_word (w : BitVec 32) (hw : w.toNat < 1000) : IntOp.minsi 999#32 (IntOp.maxsi 0#32 w) = w := by
  have hti : w.toInt = w.toNat := BitVec.toInt_eq_toNat_of_lt (by omega)
  have h0 : (0#32 : BitVec 32).toInt = 0 := by decide
  have h9 : (999#32 : BitVec 32).toInt = 999 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h9, decide_eq_true_eq]; omega

/-- The column of target words, as one term of the launched words: the clip, cast to a column. -/
theorem targets_term (c : Dev nD) :
    (V m c main_v18 : S16384x1.Idx → BitVec 32)
      = shapeCast S16384x1
          (minsi (broadcastInDim S16384 ![] bcast_S_S16384 (constantI S_ 32 999#32))
            (maxsi (broadcastInDim S16384 ![] bcast_S_S16384 (constantI S_ 32 0#32))
              (m ((c : Thread nD τ).loc main_arg1) : S16384.Idx → BitVec 32)))
          shapeCasts_S16384_S16384x1 := by
  dsimp only [V, V0]
  simp only [hostOps0, hostOps0_1, hostOps0_2, hostOps0_3, hostOps0_4, List.flatten_cons, List.flatten_nil, List.append_nil, List.cons_append, List.nil_append]
  open Idealize.ShloMosaic.StableHlo in after_results
  rfl

/-- The column of target words the launch finds: a word that is a class number is passed unchanged (the clip to
    [0, 999] does nothing to it). -/
theorem target_word (c : Dev nD) (i : Fin 16384)
    (h : ((m ((c : Thread nD τ).loc main_arg1) : S16384.Idx → BitVec 32) (ix1 i)).toNat < 1000) :
    (V m c main_v18 : S16384x1.Idx → BitVec 32) (ix2 i (0 : Fin 1))
      = (m ((c : Thread nD τ).loc main_arg1) : S16384.Idx → BitVec 32) (ix1 i) := by
  rw [targets_term m c]
  rw [shapeCast_apply _ shapeCasts_S16384_S16384x1 (ix2 i (0 : Fin 1)) (ix1 i) (by
    rw [Shape.rowMajor_val_two, Shape.rowMajor_val_one]
    show i.val = i.val * 1 + 0
    rw [Nat.mul_one, Nat.add_zero])]
  show IntOp.minsi (broadcastInDim S16384 ![] bcast_S_S16384 (constantI S_ 32 999#32) (ix1 i))
      (IntOp.maxsi (broadcastInDim S16384 ![] bcast_S_S16384 (constantI S_ 32 0#32) (ix1 i))
        ((m ((c : Thread nD τ).loc main_arg1) : S16384.Idx → BitVec 32) (ix1 i))) = _
  rw [broadcastInDim_apply _ bcast_S_S16384 (constantI S_ 32 999#32) (ix1 i) ix0 (fun a => a.elim0),
    broadcastInDim_apply _ bcast_S_S16384 (constantI S_ 32 0#32) (ix1 i) ix0 (fun a => a.elim0)]
  exact clip_word _ h

end Cert.Seesaw.KerHost

end
-- ==== Proof.KerRun.lean ====
/-
  The kernel's run, read: the 32 grid points' blocks tile the wide output array, row `i` of which holds the loss of
  row `i` in every lane; the host lines after the launch take lane 0, sum from zero and divide by the number of rows.
-/
import proofs.«426645_j41120016892076_3_alg».proof.Proof.Spec
import proofs.«426645_j41120016892076_3_alg».proof.Proof.SpecLaws
import proofs.«426645_j41120016892076_3_alg».proof.Proof.KerBlock
import proofs.«426645_j41120016892076_3_alg».proof.Proof.KerHost
import proofs.«426645_j41120016892076_3_alg».proof.Proof.Gen.KernelIdeal.Frame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

noncomputable section

namespace Cert.Seesaw.KerRun

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-! ## A row's loss under equal arguments -/

/-- A row's loss does not see how its logits and its target class are spelt. -/
theorem rowLoss_congr (cc : Fin 1000 → EReal) {x x' : Fin 1000 → EReal} {t t' : Fin 1000} (hx : x = x') (ht : t.val = t'.val) :
    rowLoss cc x t = rowLoss cc x' t' := by
  obtain rfl : t = t' := Fin.ext ht
  rw [hx]

/-- One entry of a grid point's output block, over the block's three inputs as plain vectors: when row `r` of the logits
    block is row `i` of the logits, the target word of row `r` is that of row `i`, and the table block is the mitigation
    table of the counts, every lane of row `r` holds the loss of row `i`. -/
theorem block_entry (x0 : Vec Ideal S512x1000 .f32) (x1 : Vec Ideal S512x1 .i32) (x2 : Vec Ideal S1000x1000 .f32)
    (a0 : S16384x1000.Idx → EReal) (a1 : S16384.Idx → BitVec 32) (a2 : S1000.Idx → EReal)
    (h : ∀ i : Fin 16384, (a1 (ix1 i)).toNat < 1000)
    (hfin : ∀ (i : Fin 16384) (j : Fin 1000), ∃ v : ℝ, a0 (ix2 i j) = (v : EReal))
    (r : Fin 512) (l : Fin 128) (i : Fin 16384)
    (h0 : ∀ j : Fin 1000, x0 (ix2 r j) = a0 (ix2 i j))
    (h1 : (x1 (ix2 r (0 : Fin 1)) : BitVec 32) = a1 (ix1 i))
    (h2 : ∀ a b : Fin 1000, x2 (ix2 a b) = mitig (fun j => a2 (ix1 j)) a b) :
    out0_3 (F := Ideal) x0 x1 x2 (ix2 r l) = lossVec a0 a1 a2 h (ix1 i) := by
  have ht : (x1 (ix2 r (0 : Fin 1)) : BitVec 32).toNat < 1000 := by rw [h1]; exact h i
  refine (Cert.Seesaw.Ker.block_row x0 x1 x2 (fun j => a2 (ix1 j)) h2 r l ht).trans ?_
  rw [Cert.Seesaw.rowLossLog_eq _ _ (fun j => by rw [h0 j]; exact hfin i j)]
  show rowLoss _ _ _ = rowLoss _ _ _
  refine rowLoss_congr _ (funext fun j => h0 j) ?_
  show (x1 (ix2 r (0 : Fin 1)) : BitVec 32).toNat = (a1 (ix1 i)).toNat
  rw [h1]

/-! ## The index maps -/

/-- The printed index maps, decided over the 32 grid points: the logits, the target column and the output move one block
    of rows per point; the table stays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks' entries -/

/-- Row `r` of point `t`'s logits block is row `512 t + r` of the logits. -/
theorem logits_block (c : Dev nD) (t : Fin cfg0.N) (r : Fin 512) (j : Fin 1000) (i : Fin 16384) (hi : i.val = 512 * t.val + r.val) :
    (iblk m c 0 t : Vec Ideal S512x1000 .f32) (ix2 r j)
      = (m ((c.tc : Thread nD τ).loc main_arg0) : S16384x1000.Idx → EReal) (ix2 i j) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 512 + 1 * r.val = i.val; omega
  | ⟨1, _⟩ => show win0_0.index t (1 : Fin 2) * 1000 + 1 * j.val = j.val; omega

/-- Row `r` of point `t`'s target column is the word the launch finds at row `512 t + r`. -/
theorem target_block (c : Dev nD) (t : Fin cfg0.N) (r : Fin 512) (i : Fin 16384) (hi : i.val = 512 * t.val + r.val) :
    (iblk m c 1 t : Vec Ideal S512x1 .i32) (ix2 r (0 : Fin 1))
      = (V m c main_v18 : S16384x1.Idx → BitVec 32) (ix2 i (0 : Fin 1)) := by
  obtain ⟨-, -, e0, e1, -⟩ := idx_facts t
  unfold iblk
  rw [View.read_apply]
  show V m c main_v18 _ = _
  refine congrArg _ (funext fun a => Fin.ext ?_)
  match a with
  | ⟨0, _⟩ => show win0_1.index t (0 : Fin 2) * 512 + 1 * r.val = i.val; omega
  | ⟨1, _⟩ => show win0_1.index t (1 : Fin 2) * 1 + 1 * (0 : Fin 1).val = (0 : Fin 1).val; omega

/-- Every point's table block is the whole table. -/
theorem table_block (c : Dev nD) (t : Fin cfg0.N) (a b : Fin 1000) :
    (iblk m c 2 t : Vec Ideal S1000x1000 .f32) (ix2 a b)
      = (V m c main_v16 : S1000x1000.Idx → EReal) (ix2 a b) := by
  obtain ⟨-, -, -, -, e0, e1, -⟩ := idx_facts t
  unfold iblk
  rw [View.read_apply]
  show V m c main_v16 _ = _
  refine congrArg _ (funext fun d => Fin.ext ?_)
  match d with
  | ⟨0, _⟩ => show win0_2.index t (0 : Fin 2) * 1000 + 1 * a.val = a.val; omega
  | ⟨1, _⟩ => show win0_2.index t (1 : Fin 2) * 1000 + 1 * b.val = b.val; omega

/-! ## The wide array -/

/-- The array the blocks tile: every lane of row `i` holds the loss of row `i`. -/
def wide (hrng : ∀ (c : Dev nD) (i : Fin 16384),
      ((m ((c.tc : Thread nD τ).loc main_arg1) : S16384.Idx → BitVec 32) (ix1 i)).toNat < 1000) (c : Dev nD) :
    S16384x128.Idx → EReal :=
  fun idx => lossVec (m ((c.tc : Thread nD τ).loc main_arg0)) (m ((c.tc : Thread nD τ).loc main_arg1))
    (m ((c.tc : Thread nD τ).loc main_arg2)) (hrng c) (ix1 (idx 0))

/-- What point `t` writes back is block `t` of the wide array. -/
theorem flushed_eq
    (hfin : ∀ (c : Dev nD) (i : Fin 16384) (j : Fin 1000), ∃ v : ℝ,
      (m ((c.tc : Thread nD τ).loc main_arg0) : S16384x1000.Idx → EReal) (ix2 i j) = (v : EReal))
    (hrng : ∀ (c : Dev nD) (i : Fin 16384),
      ((m ((c.tc : Thread nD τ).loc main_arg1) : S16384.Idx → BitVec 32) (ix1 i)).toNat < 1000)
    (c : Dev nD) (t : Fin cfg0.N) :
    (dats m 0 c).flushed 3 t = ((cfg0.win 3).blk t).view.read (Elt Ideal) (wide m hrng c) := by
  show (cfg0.win 3).cut (grid0.coords t) ((dats m 0 c).after 3 t) = _
  rw [after0_3]
  funext y
  obtain ⟨r, l, rfl⟩ : ∃ (r : Fin 512) (l : Fin 128), y = ix2 r l := ⟨y 0, y 1, eq_ix2 y⟩
  have ht32 : t.val < 32 := t.isLt
  have hi : 512 * t.val + r.val < 16384 := by have := r.isLt; omega
  obtain ⟨-, -, -, -, -, -, e0, e1⟩ := idx_facts t
  have hrow : (((cfg0.win 3).blk t).view.emb (ix2 r l)) 0 = (⟨512 * t.val + r.val, hi⟩ : Fin 16384) := by
    apply Fin.ext
    show win0_3.index t (0 : Fin 2) * 512 + 1 * r.val = 512 * t.val + r.val
    omega
  rw [View.read_apply]
  show out0_3 (F := Ideal) (iblk m c 0 t) (iblk m c 1 t) (iblk m c 2 t) (ix2 r l) = wide m hrng c _
  unfold wide
  rw [hrow]
  exact block_entry (iblk m c 0 t) (iblk m c 1 t) (iblk m c 2 t)
    (m ((c.tc : Thread nD τ).loc main_arg0)) (m ((c.tc : Thread nD τ).loc main_arg1)) (m ((c.tc : Thread nD τ).loc main_arg2))
    (hrng c) (hfin c) r l ⟨512 * t.val + r.val, hi⟩
    (fun j => logits_block m c t r j ⟨512 * t.val + r.val, hi⟩ rfl)
    ((target_block m c t r ⟨512 * t.val + r.val, hi⟩ rfl).trans
      (Cert.Seesaw.KerHost.target_word m c ⟨512 * t.val + r.val, hi⟩ (hrng c ⟨512 * t.val + r.val, hi⟩)))
    (fun a b => (table_block m c t a b).trans (Cert.Seesaw.KerHost.table_entry m c a b))

/-! ## The blocks tile the wide array -/

/-- An index of the wide array is in point `t`'s block iff each coordinate is in the block's range on its axis. -/
theorem mem_blk (t : Fin cfg0.N) (i : S16384x128.Idx) :
    i ∈ ((cfg0.win 3).blk t).view.set ↔ ∀ a : Fin 2, win0_3.index t a * S512x128.size a ≤ (i a).val
      ∧ (i a).val < win0_3.index t a * S512x128.size a + S512x128.size a := by
  show i ∈ ((View.whole main_v19).slice (win0_3.rect t)).set ↔ _
  rw [View.set_slice_whole, Rect.mem_set_unit]
  exact Iff.rfl

/-- Row `i` lies in the block of point `i / 512`, and every point writes its block back. -/
theorem cover (i : S16384x128.Idx) :
    ∃ t : Fin cfg0.N, (cfg0.win 3).flush t = true ∧ i ∈ ((cfg0.win 3).blk t).view.set := by
  have hi0 : (i 0).val < 16384 := (i 0).isLt
  have hi1 : (i 1).val < 128 := (i 1).isLt
  have ht : (i 0).val / 512 < cfg0.N := by rw [show cfg0.N = 32 from N_0]; omega
  refine ⟨⟨(i 0).val / 512, ht⟩, flush0_3 _, ?_⟩
  rw [mem_blk]
  obtain ⟨-, -, -, -, -, -, e0, e1⟩ := idx_facts ⟨(i 0).val / 512, ht⟩
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_3.index ⟨(i 0).val / 512, ht⟩ (1 : Fin 2) * 128 ≤ (i 1).val
      ∧ (i 1).val < win0_3.index ⟨(i 0).val / 512, ht⟩ (1 : Fin 2) * 128 + 128
    rw [e1]
    omega

/-- So the output array ends as the wide array. -/
theorem final
    (hfin : ∀ (c : Dev nD) (i : Fin 16384) (j : Fin 1000), ∃ v : ℝ,
      (m ((c.tc : Thread nD τ).loc main_arg0) : S16384x1000.Idx → EReal) (ix2 i j) = (v : EReal))
    (hrng : ∀ (c : Dev nD) (i : Fin 16384),
      ((m ((c.tc : Thread nD τ).loc main_arg1) : S16384.Idx → BitVec 32) (ix1 i)).toNat < 1000)
    (c : Dev nD) : (dats m 0 c).arrAt 3 cfg0.N = wide m hrng c :=
  (dats m 0 c).arrAt_eq_of_cover 3 (wide m hrng c) (fun t _ => flushed_eq m hfin hrng c t) cover

/-! ## The host lines after the launch -/

/-- The host lines after the launch, as one function of the wide output array: lane 0 of every row, as a vector, summed from
    zero, over f32(16384). -/
def tailOf (A : FVec Ideal S16384x128 .f32) : FVec Ideal S_ .f32 :=
  Host.divf (F := Ideal)
    (Host.reduceAdd (F := Ideal)
      (shapeCast S16384 (extractStridedSlice S16384x1 ![0, 0] A slices_S16384x128_S16384x1_0_0) shapeCasts_S16384x1_S16384)
      (constant (F := Ideal) S_ .f32 0x00000000#32) reducesTo_S16384_S_d0 h_S_)
    (constant (F := Ideal) S_ .f32 0x46800000#32)

/-- Lane 0 of a wide array whose every lane of row `i` holds `L i` is `L`. -/
theorem lane_zero (A : FVec Ideal S16384x128 .f32) (L : S16384.Idx → EReal)
    (hA : ∀ idx : S16384x128.Idx, A idx = L (ix1 (idx 0))) :
    shapeCast S16384 (extractStridedSlice S16384x1 ![0, 0] A slices_S16384x128_S16384x1_0_0) shapeCasts_S16384x1_S16384 = L := by
  funext j
  refine (shapeCast_apply (extractStridedSlice S16384x1 ![0, 0] A slices_S16384x128_S16384x1_0_0) shapeCasts_S16384x1_S16384 j
    (ix2 (j 0) (0 : Fin 1)) ?_).trans ?_
  · rw [Shape.rowMajor_val_two, Shape.rowMajor_val_one]
    show (j 0).val * 1 + 0 = (j 0).val
    omega
  refine (extractStridedSlice_apply ![0, 0] A slices_S16384x128_S16384x1_0_0 (ix2 (j 0) (0 : Fin 1)) (ix2 (j 0) (0 : Fin 128))
    (fun a => ?_)).trans ?_
  · match a with
    | ⟨0, _⟩ => show (j 0).val = 0 + (j 0).val; omega
    | ⟨1, _⟩ => show (0 : Nat) = 0 + 0; rfl
  rw [hA]
  exact congrArg L (eq_ix1 j).symm

/-- The tail of such an array is the mean of `L`. -/
theorem tailOf_eq (A : FVec Ideal S16384x128 .f32) (L : S16384.Idx → EReal)
    (hA : ∀ idx : S16384x128.Idx, A idx = L (ix1 (idx 0))) :
    tailOf A = fun _ => meanLoss L := by
  funext z
  unfold tailOf
  rw [lane_zero A L hA]
  show Ideal.div (Host.reduceAdd (F := Ideal) L (constant (F := Ideal) S_ .f32 0x00000000#32) reducesTo_S16384_S_d0 h_S_ z)
    (Ideal.ofBits .f32 0x46800000#32) = meanLoss L
  unfold meanLoss
  refine congrArg (fun v => Ideal.div v (Ideal.ofBits .f32 0x46800000#32)) ?_
  simp only [Host.reduceAdd, Ideal.hostReduceAdd_def]
  exact Ideal.hostReduceAdd_total reducesTo_S16384_S_d0 (fun b => b.elim0) L _ z

/-- What the host lines after the launch leave in the result buffer: the mean of the batch's losses. -/
theorem tail
    (hfin : ∀ (c : Dev nD) (i : Fin 16384) (j : Fin 1000), ∃ v : ℝ,
      (m ((c.tc : Thread nD τ).loc main_arg0) : S16384x1000.Idx → EReal) (ix2 i j) = (v : EReal))
    (hrng : ∀ (c : Dev nD) (i : Fin 16384),
      ((m ((c.tc : Thread nD τ).loc main_arg1) : S16384.Idx → BitVec 32) (ix1 i)).toNat < 1000)
    (c : Dev nD) :
    Pipeline.afterTail₀ cfgs (dats m) 0 (V0 m) [hostOps1] c main_v23
      = (fun _ => meanLoss (lossVec (m ((c.tc : Thread nD τ).loc main_arg0)) (m ((c.tc : Thread nD τ).loc main_arg1))
              (m ((c.tc : Thread nD τ).loc main_arg2)) (hrng c))) := by
  have e : Pipeline.withArrays (cfgs 0).spec c (V0 m c) (fun w => (dats m 0 c).arrAt w (cfgs 0).N) (Proc.devRef .tc main_v19)
      = wide m hrng c :=
    (Pipeline.withArrays_arr spec0 launch0.win.arr_inj c _ _ 3).trans (final m hfin hrng c)
  unfold Pipeline.afterTail₀
  show StableHlo.after hostOps1 _ (Proc.devRef .tc main_v23) = _
  after_results
  show tailOf (Pipeline.withArrays (cfgs 0).spec c (V0 m c) (fun w => (dats m 0 c).arrAt w (cfgs 0).N) (Proc.devRef .tc main_v19)) = _
  exact (congrArg tailOf e).trans (tailOf_eq (wide m hrng c) _ (fun _ => rfl))

/-- Every weakly fair execution of the idealized kernel from `m` ends with its result at the mean of the batch's losses
    and its arguments unchanged, when the logits are finite and the target words are class numbers. -/
theorem kernel_run
    (hfin : ∀ (c : Dev nD) (i : Fin 16384) (j : Fin 1000), ∃ v : ℝ,
      (m ((c.tc : Thread nD τ).loc main_arg0) : S16384x1000.Idx → EReal) (ix2 i j) = (v : EReal))
    (hrng : ∀ (c : Dev nD) (i : Fin 16384),
      ((m ((c.tc : Thread nD τ).loc main_arg1) : S16384.Idx → BitVec 32) (ix1 i)).toNat < 1000) :
    θ_run (defs (F := Ideal)) (onTc (τ := τ) (main (F := Ideal))) ⟨m, fun _ => 0, ρ⟩ (fun r => ∀ c : Dev nD,
      r.2.mem ((c.tc : Thread nD τ).loc main_v23)
          = (fun _ => meanLoss (lossVec (m ((c.tc : Thread nD τ).loc main_arg0)) (m ((c.tc : Thread nD τ).loc main_arg1))
              (m ((c.tc : Thread nD τ).loc main_arg2)) (hrng c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun r h c =>
    ⟨((h c).2 main_v23 (Pipeline.mem_restRefs_of main_v23 (by decide) (by decide))).trans (tail m hfin hrng c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.Seesaw.KerRun

end
-- ==== Proof.PreDecode.lean ====
/-
  What the precondition says of the inputs: every logit is a real number, and every target word is a class number.
-/
import proofs.«426645_j41120016892076_3_alg».proof.Pre_finite_inputs
import proofs.«426645_j41120016892076_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Seesaw.Pre

open Idealize.ShloMosaic Idealize.ShloMosaic.ValueIdx

open Cert.Pre_finite_inputs Cert.Pre_finite_inputs.Facts

/-- The scalar shape has one index. -/
instance subsingletonScalarIdx : Subsingleton S_.Idx := ⟨fun a b => funext fun d => d.elim0⟩

/-- The word 0x7F800000 denotes +∞. -/
theorem posInf_eq : Ideal.ofBits .f32 0x7F800000#32 = (⊤ : EReal) := by
  simp [Ideal.ofBits, Ideal.ieee]

/-- An extended real whose absolute value `max x (−x)` is below +∞ is a real number. -/
theorem real_of_abs_lt_top (x : EReal)
    (h : Ideal.cmp .olt (max x (-x)) (Ideal.ofBits .f32 0x7F800000#32) = 1#1) : ∃ v : ℝ, x = (v : EReal) := by
  rw [posInf_eq] at h
  simp only [Ideal.cmp, StableHlo.Predicate.ofBool_eq_one_iff, decide_eq_true_eq] at h
  induction x using EReal.rec with
  | bot => simp at h
  | top => simp at h
  | coe v => exact ⟨v, rfl⟩

/-- A 32-bit word that is signed-at-least 0 and signed-below 1000 has a value below 1000. -/
theorem toNat_lt_of_range (w : BitVec 32)
    (h : IntOp.andi (IntOp.cmpi .sge w 0#32) (IntOp.cmpi .slt w 1000#32) = 1#1) : w.toNat < 1000 := by
  obtain ⟨h1, h2⟩ := IntOp.andi_eq_one.1 h
  simp only [IntOp.cmpi, StableHlo.Predicate.ofBool_eq_one_iff, BitVec.sle, BitVec.slt, decide_eq_true_eq] at h1 h2
  have e0 : (0#32 : BitVec 32).toInt = 0 := by decide
  have e1 : (1000#32 : BitVec 32).toInt = 1000 := by decide
  rw [e0] at h1
  rw [e1] at h2
  rw [BitVec.toInt_eq_toNat_cond] at h1 h2
  have hw := w.isLt
  split at h1 <;> omega

/-- The precondition at the extended reals gives finite logits and in-range targets. -/
theorem decode
    (a0 : FVec Ideal Cert.Pre_finite_inputs.S16384x1000 .f32) (a1 : IVec Cert.Pre_finite_inputs.S16384 32)
    (a2 : FVec Ideal Cert.Pre_finite_inputs.S1000 .f32)
    (h : Cert.Pre_finite_inputs.fn (F := Ideal) a0 a1 a2 = (fun _ => 1#1)) :
    (∀ (i : Fin 16384) (j : Fin 1000), ∃ v : ℝ, a0 (ix2 i j) = (v : EReal))
      ∧ (∀ i : Fin 16384, (a1 (ix1 i)).toNat < 1000) := by
  have h0 := congrFun h ValueIdx.ix0
  dsimp only [fn] at h0
  obtain ⟨h01, hC⟩ := IntOp.andi_eq_one.1 h0
  obtain ⟨hA, _⟩ := IntOp.andi_eq_one.1 h01
  refine ⟨fun i j => ?_, fun i => ?_⟩
  · have e := Host.reduce_andi_all _ _ _ _ _ hA (ix2 i j)
    exact real_of_abs_lt_top _ e
  · have e := Host.reduce_andi_all _ _ _ _ _ hC (ix1 i)
    exact toNat_lt_of_range _ e

end Cert.Seesaw.Pre

end
-- ==== Proof.lean ====
/-
  The Seesaw loss: a Pallas kernel against its jnp reference, over the extended reals.

  Both programs compute, for each of 16384 rows, the loss of Proof/Spec.lean — softmax of the logits, a mitigation
  factor from the class counts, a compensation factor from the probabilities, the reweighted logits' log-softmax at
  the target class, negated — and return the mean over the rows. They differ in four places, none of which changes the
  value:
    • the kernel builds the 1000 × 1000 table of mitigation factors once and selects the target's row by a product
      with a one-hot matrix; a sum of zeros and one term is that term. The reference gathers the target's count first;
    • the kernel reads the target's probability, and at the end the target's log-probability, as the sum of a row
      masked by the one-hot row; the reference gathers them;
    • the kernel writes the compensation `(p_j / (p_t + ε)) ^ q` as `exp (q · (log p_j − log (p_t + ε)))` with
      `log p_j` taken from the log-softmax: for finite logits every quantity under a logarithm is a positive real, and
      the two are one number;
    • the kernel clips the target words to [0, 999] where the reference wraps negative ones and poisons those past
      the end: on class numbers, which the precondition asks for, neither does anything.
  The kernel's rows are written 128 lanes wide in 32 blocks of 512 rows; the host reads lane 0.
-/
import proofs.«426645_j41120016892076_3_alg».proof.Defs
import proofs.«426645_j41120016892076_3_alg».proof.Proof.Gen.Kernel
import proofs.«426645_j41120016892076_3_alg».proof.Proof.Gen.Kernel.Frame
import proofs.«426645_j41120016892076_3_alg».proof.Proof.Gen.KernelIdeal
import proofs.«426645_j41120016892076_3_alg».proof.Proof.Gen.KernelIdeal.Frame
import proofs.«426645_j41120016892076_3_alg».proof.Proof.Gen.ReferenceIdeal
import proofs.«426645_j41120016892076_3_alg».proof.Proof.Gen.Pre_finite_inputs
import proofs.«426645_j41120016892076_3_alg».proof.Proof.RefOps
import proofs.«426645_j41120016892076_3_alg».proof.Proof.RefRunHand
import proofs.«426645_j41120016892076_3_alg».proof.Proof.RefRead
import proofs.«426645_j41120016892076_3_alg».proof.Proof.RefRow
import proofs.«426645_j41120016892076_3_alg».proof.Proof.KerRun
import proofs.«426645_j41120016892076_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its run, with the result forgotten. -/
theorem frame_ri : Cert.frame_ReferenceIdeal := fun m ρ _ =>
  (θ_run Cert.ReferenceIdeal.defs _ _).mono (fun _ h c => (h c).2) (Cert.Seesaw.RefRun.run (F := Ideal) m ρ)

/-- Both runs end at the mean of the batch's losses. -/
theorem algebraic : Cert.algebraic_KernelIdeal_ReferenceIdeal := by
  intro m ρ m' ρ' hpre hagree
  have hdec := fun c => Cert.Seesaw.Pre.decode _ _ _ (hpre c)
  refine ⟨_, Cert.Seesaw.KerRun.kernel_run m ρ (fun c => (hdec c).1) (fun c => (hdec c).2), ?_⟩
  refine (θ_run Cert.ReferenceIdeal.defs _ _).mono (fun _ h c => ⟨(h c).1.trans ?_, (h c).2⟩)
    (Cert.Seesaw.RefRun.run (F := Ideal) m' ρ')
  rw [(hagree c).1, (hagree c).2.1, (hagree c).2.2]
  exact Cert.Seesaw.Ref.ref_result _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
